-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S139x128 .f32) : IVec S_ 1 :=
  let main_v0 : FVec F S139x128 .f32 := Host.absf main_arg5
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S1x1024 : Shape := ⟨2, ![1, 1024]⟩
abbrev S139x128 : Shape := ⟨2, ![139, 128]⟩
abbrev S1024 : Shape := ⟨1, ![1024]⟩
abbrev S1024x1 : Shape := ⟨2, ![1024, 1]⟩
abbrev S1x1024x1024x128 : Shape := ⟨4, ![1, 1024, 1024, 128]⟩
abbrev S1x128x128x128 : Shape := ⟨4, ![1, 128, 128, 128]⟩
abbrev S1x128 : Shape := ⟨2, ![1, 128]⟩
abbrev S32x1 : Shape := ⟨2, ![32, 1]⟩
abbrev S32x128 : Shape := ⟨2, ![32, 128]⟩
abbrev S32x128x66 : Shape := ⟨3, ![32, 128, 66]⟩
abbrev S32x128x1 : Shape := ⟨3, ![32, 128, 1]⟩
abbrev S32x128x6 : Shape := ⟨3, ![32, 128, 6]⟩
abbrev S32x128x139 : Shape := ⟨3, ![32, 128, 139]⟩
abbrev S4096x139 : Shape := ⟨2, ![4096, 139]⟩
abbrev S4096x128 : Shape := ⟨2, ![4096, 128]⟩
abbrev S32x128x128 : Shape := ⟨3, ![32, 128, 128]⟩
abbrev S1x32x128x128 : Shape := ⟨4, ![1, 32, 128, 128]⟩

abbrev nBuf : Space → Nat
  | .hbm => 22
  | .vmem => 13
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1024, .i32⟩
  | .hbm, ⟨7, _⟩ => ⟨S1024x1, .i32⟩
  | .hbm, ⟨8, _⟩ => ⟨S1x1024, .i32⟩
  | .hbm, ⟨9, _⟩ => ⟨S1024, .i32⟩
  | .hbm, ⟨10, _⟩ => ⟨S1024x1, .i32⟩
  | .hbm, ⟨11, _⟩ => ⟨S1x1024, .i32⟩
  | .hbm, ⟨12, _⟩ => ⟨S1024, .i32⟩
  | .hbm, ⟨13, _⟩ => ⟨S1024x1, .i32⟩
  | .hbm, ⟨14, _⟩ => ⟨S1x1024, .i32⟩
  | .hbm, ⟨15, _⟩ => ⟨S1024, .i32⟩
  | .hbm, ⟨16, _⟩ => ⟨S1024x1, .i32⟩
  | .hbm, ⟨17, _⟩ => ⟨S1x1024, .i32⟩
  | .hbm, ⟨18, _⟩ => ⟨S1024, .i32⟩
  | .hbm, ⟨19, _⟩ => ⟨S1024x1, .i32⟩
  | .hbm, ⟨20, _⟩ => ⟨S1x1024, .i32⟩
  | .hbm, ⟨21, _⟩ => ⟨S1x1024x1024x128, .f32⟩
  | .local _ .vmem, ⟨0, _⟩ => ⟨S1024x1, .i32⟩
  | .local _ .vmem, ⟨1, _⟩ => ⟨S1x1024, .i32⟩
  | .local _ .vmem, ⟨2, _⟩ => ⟨S1024x1, .i32⟩
  | .local _ .vmem, ⟨3, _⟩ => ⟨S1x1024, .i32⟩
  | .local _ .vmem, ⟨4, _⟩ => ⟨S1024x1, .i32⟩
  | .local _ .vmem, ⟨5, _⟩ => ⟨S1x1024, .i32⟩
  | .local _ .vmem, ⟨6, _⟩ => ⟨S1024x1, .i32⟩
  | .local _ .vmem, ⟨7, _⟩ => ⟨S1x1024, .i32⟩
  | .local _ .vmem, ⟨8, _⟩ => ⟨S1024x1, .i32⟩
  | .local _ .vmem, ⟨9, _⟩ => ⟨S1x1024, .i32⟩
  | .local _ .vmem, ⟨10, _⟩ => ⟨S139x128, .f32⟩
  | .local _ .vmem, ⟨11, _⟩ => ⟨S1x128x128x128, .f32⟩
  | .local _ .vmem, ⟨12, _⟩ => ⟨S1x128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
def k0_mult2 (i : grid0.Coords) : BitVec 32 :=
  let arg0 : BitVec 32 := BitVec.ofNat 32 (i 0).val
  let c128_i32_6 : BitVec 32 := 128#32
  let v18 : BitVec 32 := Scalar.muli arg0 c128_i32_6
  let c0_i32 : BitVec 32 := 0#32
  let v19 : BitVec 32 := Scalar.addi v18 c0_i32
  v19
def k0_off2 (i : grid0.Coords) (c0_i32 : BitVec 32) : Fin 2 → Nat :=
  let arg0 : BitVec 32 := BitVec.ofNat 32 (i 0).val
  let c128_i32_6 : BitVec 32 := 128#32
  let v18 : BitVec 32 := Scalar.muli arg0 c128_i32_6
  let v19 : BitVec 32 := Scalar.addi v18 c0_i32
  let v20 : BitVec 32 := v19
  let v21 : Index := Scalar.indexCast v20
  let c0_7 : Index := 0#32
  ![v21.toNat, 0]
def k0_mult3 (i : grid0.Coords) : BitVec 32 :=
  let arg0 : BitVec 32 := BitVec.ofNat 32 (i 0).val
  let c128_i32_22 : BitVec 32 := 128#32
  let v106 : BitVec 32 := Scalar.muli arg0 c128_i32_22
  let c32_i32_23 : BitVec 32 := 32#32
  let v107 : BitVec 32 := Scalar.addi v106 c32_i32_23
  v107
def k0_mult4 (i : grid0.Coords) : BitVec 32 :=
  let arg0 : BitVec 32 := BitVec.ofNat 32 (i 0).val
  let c128_i32_45 : BitVec 32 := 128#32
  let v194 : BitVec 32 := Scalar.muli arg0 c128_i32_45
  let c64_i32_46 : BitVec 32 := 64#32
  let v195 : BitVec 32 := Scalar.addi v194 c64_i32_46
  v195
def k0_mult5 (i : grid0.Coords) : BitVec 32 :=
  let arg0 : BitVec 32 := BitVec.ofNat 32 (i 0).val
  let c128_i32_68 : BitVec 32 := 128#32
  let v282 : BitVec 32 := Scalar.muli arg0 c128_i32_68
  let c96_i32 : BitVec 32 := 96#32
  let v283 : BitVec 32 := Scalar.addi v282 c96_i32
  v283
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S139x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S1x1024_S1024 : S1x1024.ShapeCasts S1024
  shapeCasts_S1024_S1024x1 : S1024.ShapeCasts S1024x1
  shapeCasts_S1024_S1x1024 : S1024.ShapeCasts S1x1024
  h_S1x128 : 0 < S1x128.numel
  shapeCasts_S1x128_S1x128 : S1x128.ShapeCasts S1x128
  inb_S139x128_S139x128_0_0 : ∀ a, (![0, 0] : Fin 2 → Nat) a + S139x128.size a ≤ S139x128.size a
  h_S139x128 : 0 < S139x128.numel
  h_S32x1 : 0 < S32x1.numel
  shapeCasts_S32x1_S32x1 : S32x1.ShapeCasts S32x1
  broadcasts_S32x1_S32x128 : S32x1.Broadcasts S32x128
  broadcasts_S1x128_S32x128 : S1x128.Broadcasts S32x128
  iota_S32x128x66_d2_w32 : S32x128x66.Iotas .tc 32 [2]
  shapeCasts_S32x128_S32x128x1 : S32x128.ShapeCasts S32x128x1
  broadcasts_S32x128x1_S32x128x66 : S32x128x1.Broadcasts S32x128x66
  natLt_1_32 : 1 < 32
  iota_S32x128x6_d2_w32 : S32x128x6.Iotas .tc 32 [2]
  broadcasts_S32x128x1_S32x128x6 : S32x128x1.Broadcasts S32x128x6
  concatenates_S32x128x66_S32x128x66_S32x128x1_S32x128x6_S32x128x139_d2 : Shape.Concatenates [S32x128x66, S32x128x66, S32x128x1, S32x128x6] S32x128x139 2
  shapeCasts_S32x128x139_S4096x139 : S32x128x139.ShapeCasts S4096x139
  shapeCasts_S4096x128_S32x128x128 : S4096x128.ShapeCasts S32x128x128
  inb_S1x128x128x128_S1x32x128x128_0_0_0_0 : ∀ a, (![0, 0, 0, 0] : Fin 4 → Nat) a + S1x32x128x128.size a ≤ S1x128x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  inb_S1x128x128x128_S1x32x128x128_0_32_0_0 : ∀ a, (![0, 32, 0, 0] : Fin 4 → Nat) a + S1x32x128x128.size a ≤ S1x128x128x128.size a
  inb_S1x128x128x128_S1x32x128x128_0_64_0_0 : ∀ a, (![0, 64, 0, 0] : Fin 4 → Nat) a + S1x32x128x128.size a ≤ S1x128x128x128.size a
  inb_S1x128x128x128_S1x32x128x128_0_96_0_0 : ∀ a, (![0, 96, 0, 0] : Fin 4 → Nat) a + S1x32x128x128.size a ≤ S1x128x128x128.size a
  dot_S4096x139_S139x128_S4096x128_1_0_0_1_n_n_wf : DotDims.WF S4096x139 S139x128 S4096x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x128.size a ≤ S1x1024.size a
  k0_mult2_dvd : ∀ i : grid0.Coords, 32 ∣ (k0_mult2 i).toNat
  k0_off2_inb : ∀ i : grid0.Coords, ∀ (r : Fin 4), ∀ a, (k0_off2 i (BitVec.ofNat 32 (32 * r.val))) a + S32x1.size a ≤ S1024x1.size a
  k0_mult3_dvd : ∀ i : grid0.Coords, 32 ∣ (k0_mult3 i).toNat
  k0_mult4_dvd : ∀ i : grid0.Coords, 32 ∣ (k0_mult4 i).toNat
  k0_mult5_dvd : ∀ i : grid0.Coords, 32 ∣ (k0_mult5 i).toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S1024x1.size a
  hwx0_0 : ∀ i : grid0.Coords, EltTy.bits .i32 = 32 ∨ (Rect.block (s := S1024x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .i32 = 32 ∨ (Rect.block (s := S1x1024) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .i32 = 32 ∨ (Rect.block (s := S1x1024) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .i32 = 32 ∨ (Rect.block (s := S1024x1) S1024x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .i32 = 32 ∨ (Rect.block (s := S1x1024) S1x1024.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .i32 = 32 ∨ (Rect.block (s := S1024x1) S1024x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .i32 = 32 ∨ (Rect.block (s := S1x1024) S1x1024.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S1024x1.size a
  hwx0_8 : ∀ i : grid0.Coords, EltTy.bits .i32 = 32 ∨ (Rect.block (s := S1024x1) S1024x1.size (cc0_transform_8 i) (hinb0_8 i)).WholeWords (EltTy.packing .i32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .i32 = 32 ∨ (Rect.block (s := S1x1024) S1x1024.size (cc0_transform_9 i) (hinb0_9 i)).WholeWords (EltTy.packing .i32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S139x128.size a ≤ S139x128.size a
  hwx0_10 : ∀ i : grid0.Coords, EltTy.bits .f32 = 32 ∨ (Rect.block (s := S139x128) S139x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128x128.size a ≤ S1x1024x1024x128.size a
  hwx0_11 : ∀ i : grid0.Coords, EltTy.bits .f32 = 32 ∨ (Rect.block (s := S1x1024x1024x128) S1x128x128x128.size (cc0_transform_11 i) (hinb0_11 i)).WholeWords (EltTy.packing .f32)

variable [Facts₀]

def dot_S4096x139_S139x128_S4096x128_1_0_0_1_n_n : DotDims S4096x139 S139x128 S4096x128 where
  lhsContracting := [1]
  rhsContracting := [0]
  lhsNonContracting := [0]
  rhsNonContracting := [1]
  lhsBatch := []
  rhsBatch := []
  wf := dot_S4096x139_S139x128_S4096x128_1_0_0_1_n_n_wf

abbrev win0_0 : Pipeline.Window sig grid0 :=
  Pipeline.Window.ofSpec (Memref.whole main_v1) S1024x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1024x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S139x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x128x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x1024 : Shape := ⟨2, ![1, 1024]⟩
abbrev S139x128 : Shape := ⟨2, ![139, 128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S66x128 : Shape := ⟨2, ![66, 128]⟩
abbrev S1x128 : Shape := ⟨2, ![1, 128]⟩
abbrev S128 : Shape := ⟨1, ![128]⟩
abbrev S6x128 : Shape := ⟨2, ![6, 128]⟩
abbrev S1x1024x1024x1 : Shape := ⟨4, ![1, 1024, 1024, 1]⟩
abbrev S1x1024x1024x128 : Shape := ⟨4, ![1, 1024, 1024, 128]⟩
abbrev S1x1x1x128 : Shape := ⟨4, ![1, 1, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i1⟩
  | .hbm, ⟨16, _⟩ => ⟨S1x1024x1, .i32⟩
  | .hbm, ⟨17, _⟩ => ⟨S1x1x1024, .i32⟩
  | .hbm, ⟨18, _⟩ => ⟨S1x1024x1024, .i32⟩
  | .hbm, ⟨19, _⟩ => ⟨S1x1024x1024, .i32⟩
  | .hbm, ⟨20, _⟩ => ⟨S1x1024x1024, .i1⟩
  | .hbm, ⟨21, _⟩ => ⟨S1x1024x1, .i32⟩
  | .hbm, ⟨22, _⟩ => ⟨S1x1x1024, .i32⟩
  | .hbm, ⟨23, _⟩ => ⟨S1x1024x1024, .i32⟩
  | .hbm, ⟨24, _⟩ => ⟨S1x1024x1024, .i32⟩
  | .hbm, ⟨25, _⟩ => ⟨S1x1024x1024, .i32⟩
  | .hbm, ⟨26, _⟩ => ⟨S_, .i32⟩
  | .hbm, ⟨27, _⟩ => ⟨S1x1024x1024, .i32⟩
  | .hbm, ⟨28, _⟩ => ⟨S1x1024x1024, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x1024x1024, .i32⟩
  | .hbm, ⟨33, _⟩ => ⟨S1x1024x1024, .i32⟩
  | .hbm, ⟨34, _⟩ => ⟨S_, .i32⟩
  | .hbm, ⟨35, _⟩ => ⟨S1x1024x1024, .i32⟩
  | .hbm, ⟨36, _⟩ => ⟨S1x1024x1024, .i32⟩
  | .hbm, ⟨37, _⟩ => ⟨S_, .i32⟩
  | .hbm, ⟨38, _⟩ => ⟨S_, .i32⟩
  | .hbm, ⟨39, _⟩ => ⟨S1x1024x1024, .i32⟩
  | .hbm, ⟨40, _⟩ => ⟨S1x1024x1024, .i32⟩
  | .hbm, ⟨41, _⟩ => ⟨S1x1024x1024, .i1⟩
  | .hbm, ⟨42, _⟩ => ⟨S1x1024x1, .i32⟩
  | .hbm, ⟨43, _⟩ => ⟨S1x1x1024, .i32⟩
  | .hbm, ⟨44, _⟩ => ⟨S1x1024x1024, .i32⟩
  | .hbm, ⟨45, _⟩ => ⟨S1x1024x1024, .i32⟩
  | .hbm, ⟨46, _⟩ => ⟨S1x1024x1024, .i32⟩
  | .hbm, ⟨47, _⟩ => ⟨S_, .i32⟩
  | .hbm, ⟨48, _⟩ => ⟨S1x1024x1024, .i32⟩
  | .hbm, ⟨49, _⟩ => ⟨S1x1024x1024, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1024x1024, .i32⟩
  | .hbm, ⟨54, _⟩ => ⟨S1x1024x1024, .i32⟩
  | .hbm, ⟨55, _⟩ => ⟨S_, .i32⟩
  | .hbm, ⟨56, _⟩ => ⟨S1x1024x1024, .i32⟩
  | .hbm, ⟨57, _⟩ => ⟨S1x1024x1024, .i32⟩
  | .hbm, ⟨58, _⟩ => ⟨S_, .i32⟩
  | .hbm, ⟨59, _⟩ => ⟨S_, .i32⟩
  | .hbm, ⟨60, _⟩ => ⟨S1x1024x1024, .i32⟩
  | .hbm, ⟨61, _⟩ => ⟨S1x1024x1024, .i32⟩
  | .hbm, ⟨62, _⟩ => ⟨S1x1024x1, .i32⟩
  | .hbm, ⟨63, _⟩ => ⟨S1x1x1024, .i32⟩
  | .hbm, ⟨64, _⟩ => ⟨S1x1024x1024, .i32⟩
  | .hbm, ⟨65, _⟩ => ⟨S1x1024x1024, .i32⟩
  | .hbm, ⟨66, _⟩ => ⟨S1x1024x1024, .i32⟩
  | .hbm, ⟨67, _⟩ => ⟨S_, .i32⟩
  | .hbm, ⟨68, _⟩ => ⟨S1x1024x1024, .i32⟩
  | .hbm, ⟨69, _⟩ => ⟨S1x1024x1024, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x1024x1024, .i32⟩
  | .hbm, ⟨74, _⟩ => ⟨S1x1024x1024, .i32⟩
  | .hbm, ⟨75, _⟩ => ⟨S_, .i32⟩
  | .hbm, ⟨76, _⟩ => ⟨S1x1024x1024, .i32⟩
  | .hbm, ⟨77, _⟩ => ⟨S1x1024x1024, .i32⟩
  | .hbm, ⟨78, _⟩ => ⟨S_, .i32⟩
  | .hbm, ⟨79, _⟩ => ⟨S_, .i32⟩
  | .hbm, ⟨80, _⟩ => ⟨S1x1024x1024, .i32⟩
  | .hbm, ⟨81, _⟩ => ⟨S1x1024x1024, .i32⟩
  | .hbm, ⟨82, _⟩ => ⟨S66x128, .f32⟩
  | .hbm, ⟨83, _⟩ => ⟨S66x128, .f32⟩
  | .hbm, ⟨84, _⟩ => ⟨S1x128, .f32⟩
  | .hbm, ⟨85, _⟩ => ⟨S128, .f32⟩
  | .hbm, ⟨86, _⟩ => ⟨S6x128, .f32⟩
  | .hbm, ⟨87, _⟩ => ⟨S_, .i32⟩
  | .hbm, ⟨88, _⟩ => ⟨S1x1024x1024, .i32⟩
  | .hbm, ⟨89, _⟩ => ⟨S1x1024x1024, .i1⟩
  | .hbm, ⟨90, _⟩ => ⟨S_, .i32⟩
  | .hbm, ⟨91, _⟩ => ⟨S1x1024x1024, .i32⟩
  | .hbm, ⟨92, _⟩ => ⟨S1x1024x1024, .i32⟩
  | .hbm, ⟨93, _⟩ => ⟨S1x1024x1024, .i32⟩
  | .hbm, ⟨94, _⟩ => ⟨S1x1024x1024x1, .i32⟩
  | .hbm, ⟨95, _⟩ => ⟨S1x1024x1024x128, .f32⟩
  | .hbm, ⟨96, _⟩ => ⟨S_, .i32⟩
  | .hbm, ⟨97, _⟩ => ⟨S1x1024x1024, .i32⟩
  | .hbm, ⟨98, _⟩ => ⟨S1x1024x1024, .i1⟩
  | .hbm, ⟨99, _⟩ => ⟨S_, .i32⟩
  | .hbm, ⟨100, _⟩ => ⟨S1x1024x1024, .i32⟩
  | .hbm, ⟨101, _⟩ => ⟨S1x1024x1024, .i32⟩
  | .hbm, ⟨102, _⟩ => ⟨S1x1024x1024, .i32⟩
  | .hbm, ⟨103, _⟩ => ⟨S1x1024x1024x1, .i32⟩
  | .hbm, ⟨104, _⟩ => ⟨S1x1024x1024x128, .f32⟩
  | .hbm, ⟨105, _⟩ => ⟨S1x1024x1024x128, .f32⟩
  | .hbm, ⟨106, _⟩ => ⟨S1x1024x1024x1, .i1⟩
  | .hbm, ⟨107, _⟩ => ⟨S1x1024x1024x1, .f32⟩
  | .hbm, ⟨108, _⟩ => ⟨S1x1x1x128, .f32⟩
  | .hbm, ⟨109, _⟩ => ⟨S1x1024x1024x128, .f32⟩
  | .hbm, ⟨110, _⟩ => ⟨S1x1024x1024x128, .f32⟩
  | .hbm, ⟨111, _⟩ => ⟨S1x1024x1024x128, .f32⟩
  | .hbm, ⟨112, _⟩ => ⟨S1x1024x1024x128, .f32⟩
  | .hbm, ⟨113, _⟩ => ⟨S_, .i32⟩
  | .hbm, ⟨114, _⟩ => ⟨S1x1024x1024, .i32⟩
  | .hbm, ⟨115, _⟩ => ⟨S1x1024x1024, .i1⟩
  | .hbm, ⟨116, _⟩ => ⟨S_, .i32⟩
  | .hbm, ⟨117, _⟩ => ⟨S1x1024x1024, .i32⟩
  | .hbm, ⟨118, _⟩ => ⟨S1x1024x1024, .i32⟩
  | .hbm, ⟨119, _⟩ => ⟨S1x1024x1024, .i32⟩
  | .hbm, ⟨120, _⟩ => ⟨S1x1024x1024x1, .i32⟩
  | .hbm, ⟨121, _⟩ => ⟨S1x1024x1024x128, .f32⟩
  | .hbm, ⟨122, _⟩ => ⟨S1x1024x1024x128, .f32⟩
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_c_9 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v41 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_11 : Ref sig .tc := ⟨.hbm, 87, rfl⟩
abbrev main_v48 : Ref sig .tc := ⟨.hbm, 88, rfl⟩
abbrev main_v49 : Ref sig .tc := ⟨.hbm, 89, rfl⟩
abbrev main_c_12 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_13 : Ref sig .tc := ⟨.hbm, 96, rfl⟩
abbrev main_v55 : Ref sig .tc := ⟨.hbm, 97, rfl⟩
abbrev main_v56 : Ref sig .tc := ⟨.hbm, 98, rfl⟩
abbrev main_c_14 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_15 : Ref sig .tc := ⟨.hbm, 113, rfl⟩
abbrev main_v70 : Ref sig .tc := ⟨.hbm, 114, rfl⟩
abbrev main_v71 : Ref sig .tc := ⟨.hbm, 115, rfl⟩
abbrev main_c_16 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  slices_S139x128_S66x128_0_0 : S139x128.Slices ![0, 0] S66x128
  slices_S139x128_S66x128_66_0 : S139x128.Slices ![66, 0] S66x128
  slices_S139x128_S1x128_132_0 : S139x128.Slices ![132, 0] S1x128
  shapeCasts_S1x128_S128 : S1x128.ShapeCasts S128
  slices_S139x128_S6x128_133_0 : S139x128.Slices ![133, 0] S6x128
  bcast_S1x1024x1024_S1x1024x1024x1_0_1_2 : S1x1024x1024.BroadcastsInDim S1x1024x1024x1 (![0, 1, 2] : Fin 3 → Fin S1x1024x1024x1.rank)
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S66x128_S1x1024x1024x1_S1x1024x1024x128_3_0_n_n_0_3_1128_wf : GatherDims.WF S66x128 S1x1024x1024x1 S1x1024x1024x128 [3] [0] [] [0] [] 3 ![1, 128]
  gather_S6x128_S1x1024x1024x1_S1x1024x1024x128_3_0_n_n_0_3_1128_wf : GatherDims.WF S6x128 S1x1024x1024x1 S1x1024x1024x128 [3] [0] [] [0] [] 3 ![1, 128]

variable [Facts₀]

def gather_S66x128_S1x1024x1024x1_S1x1024x1024x128_3_0_n_n_0_3_1128 : GatherDims S66x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S66x128_S1x1024x1024x1_S1x1024x1024x128_3_0_n_n_0_3_1128_wf
def gather_S6x128_S1x1024x1024x1_S1x1024x1024x128_3_0_n_n_0_3_1128 : GatherDims S6x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S6x128_S1x1024x1024x1_S1x1024x1024x128_3_0_n_n_0_3_1128_wf

class Facts : Prop extends Facts₀ where

variable [Facts]
-- ==== Proof.RelCode.lean ====
/-
  The relative-position code on 32-bit words, and what both programs read off it.

  For a pair of positions the code is: where the pair is of one kind (`same = 1`), the signed difference
  `x − y + off` clipped to `[0, hi]`; elsewhere the extra code `miss`. With `0 ≤ hi < n` and `0 ≤ miss < n` the code is
  a word whose signed value lies in `[0, n)`, whatever the operands (the subtraction may wrap: the clip comes after).
  So its one-hot code against the lane numbers `0 … n−1` has exactly one lane set, the lane of its unsigned value; a
  negative-index wrap leaves it alone; and a row lookup clamped to `[0, n−1]` reads the row of its unsigned value.
-/
import Idealize.ShloMosaic.PureOps.Ideal

noncomputable section

namespace Cert.RelPos

open Idealize.ShloMosaic

/-- The relative-position code of a pair: the clipped shifted difference where `same` holds, else `miss`. -/
def relCode (same : BitVec 1) (x y off hi miss : BitVec 32) : BitVec 32 :=
  Scalar.select same (IntOp.minsi hi (IntOp.maxsi 0#32 (IntOp.addi (IntOp.subi x y) off))) miss

/-- A signed clip to `[0, hi]` lands in `[0, hi]`, for any word. -/
theorem clip_range (z hi : BitVec 32) (hhi : 0 ≤ hi.toInt) :
    0 ≤ (IntOp.minsi hi (IntOp.maxsi 0#32 z)).toInt ∧ (IntOp.minsi hi (IntOp.maxsi 0#32 z)).toInt ≤ hi.toInt := by
  have h0 : (0#32 : BitVec 32).toInt = 0 := by decide
  unfold IntOp.minsi IntOp.maxsi
  simp only [BitVec.slt, decide_eq_true_eq, h0]
  split_ifs with h1 h2 h2
  · exact ⟨hhi, le_refl _⟩
  · rw [h0]; exact ⟨le_refl _, hhi⟩
  · exact ⟨hhi, le_refl _⟩
  · constructor <;> omega

/-- The code's signed value lies in `[0, n)`. -/
theorem relCode_range (same : BitVec 1) (x y off hi miss : BitVec 32) (n : Int)
    (hhi : 0 ≤ hi.toInt) (hhin : hi.toInt < n) (hm : 0 ≤ miss.toInt) (hmn : miss.toInt < n) :
    0 ≤ (relCode same x y off hi miss).toInt ∧ (relCode same x y off hi miss).toInt < n := by
  unfold relCode Scalar.select
  split_ifs
  · have := clip_range (IntOp.addi (IntOp.subi x y) off) hi hhi
    constructor <;> omega
  · exact ⟨hm, hmn⟩

/-- A word with a non-negative signed value: its unsigned value is the same number. -/
theorem toNat_eq_of_nonneg (d : BitVec 32) (h : 0 ≤ d.toInt) : (d.toNat : Int) = d.toInt := by
  have h1 := BitVec.toInt_eq_toNat_cond d
  have h2 : d.toNat < 2 ^ 32 := d.isLt
  split_ifs at h1 with hc
  · omega
  · exfalso
    have : (2 : Int) ^ 32 = 4294967296 := by norm_num
    have h3 : ((2 ^ 32 : Nat) : Int) = 4294967296 := by norm_num
    omega

/-- … and it is below the bound. -/
theorem toNat_lt_of_range (d : BitVec 32) (n : Nat) (h0 : 0 ≤ d.toInt) (hn : d.toInt < n) : d.toNat < n := by
  have := toNat_eq_of_nonneg d h0
  omega

/-- A lane of the one-hot code: the word compared for equality with lane number `k`, widened, converted — on the
    extended reals `1` on the lane of the word's unsigned value and `0` elsewhere. -/
theorem hot_lane (d : BitVec 32) (k : Nat) (hk : k < 2 ^ 32) :
    Scalar.sitofp (F := Ideal) .f32 (BitVec.setWidth 32 (IntOp.cmpi .eq d (BitVec.ofNat 32 k)))
      = if d.toNat = k then (1 : EReal) else 0 := by
  rw [Ideal.scalar_sitofp_def]
  unfold IntOp.cmpi
  by_cases h : d.toNat = k
  · have hd : d = BitVec.ofNat 32 k := BitVec.eq_of_toNat_eq (by rw [BitVec.toNat_ofNat, Nat.mod_eq_of_lt hk]; exact h)
    rw [if_pos h, hd]
    simp
  · have hd : d ≠ BitVec.ofNat 32 k := fun e => h (by rw [e, BitVec.toNat_ofNat, Nat.mod_eq_of_lt hk])
    rw [if_neg h]
    have : (d == BitVec.ofNat 32 k) = false := by simpa using hd
    simp [this]

/-- The flag of a pair of one kind, as the kernel makes it (the comparison bit widened, then converted as a signed
    integer): `1` where the words agree, `0` where they differ. -/
theorem flag_signed (x y : BitVec 32) :
    Scalar.sitofp (F := Ideal) .f32 (BitVec.setWidth 32 (IntOp.cmpi .eq x y)) = if x = y then (1 : EReal) else 0 := by
  rw [Ideal.scalar_sitofp_def]
  unfold IntOp.cmpi
  by_cases h : x = y
  · rw [if_pos h, h]; simp
  · rw [if_neg h]
    have : (x == y) = false := by simpa using h
    simp [this]

/-- The same flag as the reference makes it (the comparison bit converted as an unsigned integer). -/
theorem flag_unsigned (x y : BitVec 32) :
    FloatOps.uitofp (F := Ideal) .f32 (IntOp.cmpi .eq x y) = if x = y then (1 : EReal) else 0 := by
  show (((IntOp.cmpi .eq x y).toNat : ℝ) : EReal) = _
  unfold IntOp.cmpi
  by_cases h : x = y
  · rw [if_pos h, h]; simp
  · rw [if_neg h]
    have : (x == y) = false := by simpa using h
    simp [this]

/-- A negative-index wrap leaves a non-negative word alone. -/
theorem wrap_of_nonneg (d n : BitVec 32) (h : 0 ≤ d.toInt) :
    Scalar.select (IntOp.cmpi .slt d 0#32) (IntOp.addi d n) d = d := by
  have h0 : (0#32 : BitVec 32).toInt = 0 := by decide
  unfold Scalar.select IntOp.cmpi
  have : d.slt 0#32 = false := by
    simp only [BitVec.slt, h0, decide_eq_false_iff_not, not_lt]; exact h
  simp [this]

/-- A row lookup's start index, read signed and clamped to `[0, N − 1]`, is the word's unsigned value when the word's
    signed value lies in `[0, N)`. -/
theorem clamp_of_range (d : BitVec 32) (N : Nat) (h0 : 0 ≤ d.toInt) (hN : d.toInt < N) :
    min d.toInt.toNat (N - 1) = d.toNat := by
  have := toNat_eq_of_nonneg d h0
  omega

end Cert.RelPos

end
-- ==== Proof.FeatureRow.lean ====
/-
  The contraction of a feature row made of three one-hot groups and one flag, on the extended reals.

  The feature row has 139 entries: entries 0..65 are the one-hot code of a position `a < 66`, entries 66..131 the
  one-hot code of a position `b < 66`, entry 132 is a flag `e`, and entries 133..138 the one-hot code of a position
  `c < 6`. Its contraction with a column `W` keeps one term per group: `W a`, `W (66 + b)`, `e * W 132` and
  `W (133 + c)`. On the extended reals `0 * x = 0` and `1 * x = x` for every `x`, the infinities included, and
  addition is commutative and associative, so no finiteness is needed.
-/
import Mathlib.Data.EReal.Inv
import Mathlib.Algebra.BigOperators.Group.Finset.Basic
import Mathlib.Algebra.BigOperators.Group.Finset.Piecewise

open scoped BigOperators

namespace Cert.RelPos

/-- The feature row: three one-hot groups (positions `a`, `b` among 66, `c` among 6) around one flag `e`. -/
noncomputable def featRow (a b c : Nat) (e : EReal) (k : Fin 139) : EReal :=
  if k.val < 66 then (if a = k.val then 1 else 0)
  else if k.val < 132 then (if b = k.val - 66 then 1 else 0)
  else if k.val < 133 then e
  else (if c = k.val - 133 then 1 else 0)

/-- One term of the contraction, split by which of the four selected entries the index is. -/
theorem featRow_mul (a b c : Nat) (ha : a < 66) (hb : b < 66) (hc : c < 6) (e : EReal) (W : Fin 139 → EReal)
    (k : Fin 139) :
    featRow a b c e k * W k
      = (((if k = (⟨a, by omega⟩ : Fin 139) then W k else 0) + (if k = (⟨66 + b, by omega⟩ : Fin 139) then W k else 0))
          + (if k = (⟨132, by omega⟩ : Fin 139) then e * W k else 0))
        + (if k = (⟨133 + c, by omega⟩ : Fin 139) then W k else 0) := by
  obtain ⟨k, hk⟩ := k
  simp only [featRow, Fin.mk.injEq]
  by_cases h1 : k < 66
  · rw [if_pos h1, if_neg (show ¬k = 66 + b by omega), if_neg (show ¬k = 132 by omega),
      if_neg (show ¬k = 133 + c by omega), add_zero, add_zero, add_zero]
    by_cases h : a = k
    · rw [if_pos h, if_pos h.symm, one_mul]
    · rw [if_neg h, if_neg (fun h' => h h'.symm), zero_mul]
  rw [if_neg h1, if_neg (show ¬k = a by omega), zero_add]
  by_cases h2 : k < 132
  · rw [if_pos h2, if_neg (show ¬k = 132 by omega), if_neg (show ¬k = 133 + c by omega), add_zero, add_zero]
    by_cases h : b = k - 66
    · rw [if_pos h, if_pos (show k = 66 + b by omega), one_mul]
    · rw [if_neg h, if_neg (show ¬k = 66 + b by omega), zero_mul]
  rw [if_neg h2, if_neg (show ¬k = 66 + b by omega), zero_add]
  by_cases h3 : k < 133
  · rw [if_pos h3, if_pos (show k = 132 by omega), if_neg (show ¬k = 133 + c by omega), add_zero]
  rw [if_neg h3, if_neg (show ¬k = 132 by omega), zero_add]
  by_cases h : c = k - 133
  · rw [if_pos h, if_pos (show k = 133 + c by omega), one_mul]
  · rw [if_neg h, if_neg (show ¬k = 133 + c by omega), zero_mul]

/-- The contraction of the feature row with a column: the four selected entries, the flag's one scaled by the flag. -/
theorem sum_featRow_mul (a b c : Nat) (ha : a < 66) (hb : b < 66) (hc : c < 6) (e : EReal) (W : Fin 139 → EReal) :
    ∑ k : Fin 139, featRow a b c e k * W k
      = ((W ⟨a, by omega⟩ + W ⟨66 + b, by omega⟩) + e * W ⟨132, by omega⟩) + W ⟨133 + c, by omega⟩ := by
  simp only [featRow_mul a b c ha hb hc e W, Finset.sum_add_distrib, Finset.sum_ite_eq', Finset.mem_univ, if_true]

end Cert.RelPos
-- ==== Proof.PairValue.lean ====
/-
  The value of one pair of positions, from the pair's ten words and the table.

  For the row position's words (chain `ra`, residue `rr`, entity `re`, copy `rs`, token `rt`) and the column
  position's (`ca cr ce cs ct`) the three relative-position codes are: the residue code — the residue difference
  shifted by 32 and clipped to [0, 64] on one chain, else 65 —, the token code — the token difference likewise where
  chain and residue both agree, else 65 — and the copy code — the copy difference shifted by 2 and clipped to [0, 4]
  on one entity, else 5. The pair's value at channel `z` is the sum of four table rows at that channel: row
  `residue code`, row `66 + token code`, row 132 scaled by the same-entity flag, and row `133 + copy code`.
-/
import proofs.«414862_j78022375899177_3_alg».proof.Proof.RelCode
import proofs.«414862_j78022375899177_3_alg».proof.Proof.FeatureRow
import Idealize.ShloMosaic.Lib.ValueIdx

noncomputable section

open scoped BigOperators

namespace Cert.RelPos

open Idealize.ShloMosaic Idealize.ShloMosaic.ValueIdx

/-- The residue code of a pair. -/
def resCode (ra rr ca cr : BitVec 32) : BitVec 32 :=
  relCode (IntOp.cmpi .eq ra ca) rr cr 32#32 64#32 65#32

/-- The token code of a pair. -/
def tokCode (ra rr rt ca cr ct : BitVec 32) : BitVec 32 :=
  relCode (IntOp.andi (IntOp.cmpi .eq ra ca) (IntOp.cmpi .eq rr cr)) rt ct 32#32 64#32 65#32

/-- The copy code of a pair. -/
def chainCode (re rs ce cs : BitVec 32) : BitVec 32 :=
  relCode (IntOp.cmpi .eq re ce) rs cs 2#32 4#32 5#32

theorem resCode_range (ra rr ca cr : BitVec 32) :
    0 ≤ (resCode ra rr ca cr).toInt ∧ (resCode ra rr ca cr).toInt < (66 : Nat) :=
  relCode_range _ _ _ _ _ _ 66 (by decide) (by decide) (by decide) (by decide)

theorem tokCode_range (ra rr rt ca cr ct : BitVec 32) :
    0 ≤ (tokCode ra rr rt ca cr ct).toInt ∧ (tokCode ra rr rt ca cr ct).toInt < (66 : Nat) :=
  relCode_range _ _ _ _ _ _ 66 (by decide) (by decide) (by decide) (by decide)

theorem chainCode_range (re rs ce cs : BitVec 32) :
    0 ≤ (chainCode re rs ce cs).toInt ∧ (chainCode re rs ce cs).toInt < (6 : Nat) :=
  relCode_range _ _ _ _ _ _ 6 (by decide) (by decide) (by decide) (by decide)

theorem resCode_lt (ra rr ca cr : BitVec 32) : (resCode ra rr ca cr).toNat < 66 :=
  toNat_lt_of_range _ 66 (resCode_range ra rr ca cr).1 (resCode_range ra rr ca cr).2

theorem tokCode_lt (ra rr rt ca cr ct : BitVec 32) : (tokCode ra rr rt ca cr ct).toNat < 66 :=
  toNat_lt_of_range _ 66 (tokCode_range ra rr rt ca cr ct).1 (tokCode_range ra rr rt ca cr ct).2

theorem chainCode_lt (re rs ce cs : BitVec 32) : (chainCode re rs ce cs).toNat < 6 :=
  toNat_lt_of_range _ 6 (chainCode_range re rs ce cs).1 (chainCode_range re rs ce cs).2

/-- The same-entity flag of a pair, on the extended reals. -/
def entFlag (re ce : BitVec 32) : EReal := if re = ce then 1 else 0

/-- The value of a pair at channel `z`: four rows of the table, the entity row scaled by the flag. -/
def pairVal (W : (⟨2, ![139, 128]⟩ : Shape).Idx → EReal) (ra rr re rs rt ca cr ce cs ct : BitVec 32) (z : Fin 128) : EReal :=
  ((W (ix2 ⟨(resCode ra rr ca cr).toNat, by have := resCode_lt ra rr ca cr; omega⟩ z)
      + W (ix2 ⟨66 + (tokCode ra rr rt ca cr ct).toNat, by have := tokCode_lt ra rr rt ca cr ct; omega⟩ z))
      + entFlag re ce * W (ix2 ⟨132, by omega⟩ z))
    + W (ix2 ⟨133 + (chainCode re rs ce cs).toNat, by have := chainCode_lt re rs ce cs; omega⟩ z)

/-- The contraction of the pair's feature row with the table's column `z` is the pair's value. -/
theorem sum_feature_eq_pairVal (W : (⟨2, ![139, 128]⟩ : Shape).Idx → EReal) (ra rr re rs rt ca cr ce cs ct : BitVec 32)
    (z : Fin 128) (f : Fin 139 → EReal)
    (hf : ∀ k, f k = featRow (resCode ra rr ca cr).toNat (tokCode ra rr rt ca cr ct).toNat (chainCode re rs ce cs).toNat
      (entFlag re ce) k) :
    ∑ k : Fin 139, f k * W (ix2 k z) = pairVal W ra rr re rs rt ca cr ce cs ct z := by
  simp only [hf]
  exact sum_featRow_mul _ _ _ (resCode_lt ra rr ca cr) (tokCode_lt ra rr rt ca cr ct) (chainCode_lt re rs ce cs) _
    (fun k => W (ix2 k z))

/-- A row lookup in a table of `N` rows at a code in `[0, N)`, after the negative-index wrap and the clamp: the row of
    the code's unsigned value. -/
theorem lookup_code {N : Nat} (T : (⟨2, ![N, 128]⟩ : Shape).Idx → EReal) (d n : BitVec 32) (h0 : 0 ≤ d.toInt)
    (hN : d.toInt < N) (z : Fin 128)
    (h : min (Scalar.select (IntOp.cmpi .slt d 0#32) (IntOp.addi d n) d).toInt.toNat (N - 1) < N) :
    T (ix2 ⟨min (Scalar.select (IntOp.cmpi .slt d 0#32) (IntOp.addi d n) d).toInt.toNat (N - 1), h⟩ z)
      = T (ix2 ⟨d.toNat, toNat_lt_of_range d N h0 hN⟩ z) := by
  have e : (⟨min (Scalar.select (IntOp.cmpi .slt d 0#32) (IntOp.addi d n) d).toInt.toNat (N - 1), h⟩ : Fin N)
      = ⟨d.toNat, toNat_lt_of_range d N h0 hN⟩ :=
    Fin.ext (by
      show min (Scalar.select (IntOp.cmpi .slt d 0#32) (IntOp.addi d n) d).toInt.toNat (N - 1) = d.toNat
      rw [wrap_of_nonneg d n h0]; exact clamp_of_range d N h0 hN)
  rw [e]

end Cert.RelPos

end
-- ==== Proof.ResultArray.lean ====
/-
  The result array as one function of the arguments.

  Element (0, r, s, z) is the pair value of row position r and column position s at channel z, the positions' words
  read off the five integer arguments and the rows off the table argument.
-/
import proofs.«414862_j78022375899177_3_alg».proof.Proof.Gen.KernelIdeal
import proofs.«414862_j78022375899177_3_alg».proof.Proof.PairValue

noncomputable section

namespace Cert.KernelIdeal.Array

open Cert.KernelIdeal Cert.RelPos Idealize.ShloMosaic Idealize.ShloMosaic.TcCoe Idealize.ShloMosaic.ValueIdx Idealize.SL.Sem

variable (m : (ℓ : Loc nD τ sig) → Buf (Elt Ideal) ℓ)

/-- The word of position `n` (below 1024) in an integer argument [1, 1024]. -/
def argWord (X : S1x1024.Idx → BitVec 32) (n : Fin 1024) : BitVec 32 := X (ix2 0 n)

/-- The result array: the pair value of the row and column positions at the channel. -/
def result (c : Dev nD) : S1x1024x1024x128.Idx → EReal := fun j =>
  pairVal (m ((c : Thread nD τ).loc main_arg5))
    (argWord (m ((c : Thread nD τ).loc main_arg0)) (j 1)) (argWord (m ((c : Thread nD τ).loc main_arg1)) (j 1)) (argWord (m ((c : Thread nD τ).loc main_arg2)) (j 1))
    (argWord (m ((c : Thread nD τ).loc main_arg3)) (j 1)) (argWord (m ((c : Thread nD τ).loc main_arg4)) (j 1))
    (argWord (m ((c : Thread nD τ).loc main_arg0)) (j 2)) (argWord (m ((c : Thread nD τ).loc main_arg1)) (j 2)) (argWord (m ((c : Thread nD τ).loc main_arg2)) (j 2))
    (argWord (m ((c : Thread nD τ).loc main_arg3)) (j 2)) (argWord (m ((c : Thread nD τ).loc main_arg4)) (j 2)) (j 3)

end Cert.KernelIdeal.Array

end
-- ==== Proof.Chunk.lean ====
/-
  One chunk of the kernel's body as a function: from the five word columns of 32 row positions, the five word rows of
  128 column positions and the table, the 32 × 128 × 128 values the chunk stores.

  For every (row, column) pair the three relative-position codes are made as words, each code is spread into its one-hot
  lanes (66, 66 and 6 of them) and converted, the same-entity bit is converted into one more lane, the four groups are
  laid side by side into a feature row of 139 lanes, the 32 · 128 feature rows are multiplied with the 139 × 128 table into a
  zero accumulator, and the product is laid back out as 32 × 128 × 128.
-/
import proofs.«414862_j78022375899177_3_alg».proof.Proof.Gen.KernelIdeal

noncomputable section

namespace Cert.KernelIdeal.Chunk

open Cert.KernelIdeal Cert.KernelIdeal.Gen Idealize.ShloMosaic

variable {F : FTy → Type} [FloatOps F]

/-- The pairs of one kind: a word column against a word row, compared for equality pair by pair. -/
def samePair (xr : IVec S32x1 32) (xc : IVec S1x128 32) : IVec S32x128 1 :=
  cmpi .eq (broadcastTo S32x128 xr broadcasts_S32x1_S32x128) (broadcastTo S32x128 xc broadcasts_S1x128_S32x128)

/-- The shifted difference of a word column and a word row clipped to `[0, hi]` where `same` holds, `miss` elsewhere. -/
def codeOf (same : IVec S32x128 1) (xr : IVec S32x1 32) (xc : IVec S1x128 32) (off hi miss : BitVec 32) : IVec S32x128 32 :=
  select same
    (minsi (broadcast S32x128 hi) (maxsi (broadcast S32x128 0#32)
      (addi (subi (broadcastTo S32x128 xr broadcasts_S32x1_S32x128) (broadcastTo S32x128 xc broadcasts_S1x128_S32x128))
        (broadcast S32x128 off))))
    (broadcast S32x128 miss)

/-- A code spread into 66 one-hot lanes and converted. -/
def hot66 (d : IVec S32x128 32) : FVec F S32x128x66 .f32 :=
  sitofp .f32 (extui 32 (cmpi .eq
    (broadcastTo S32x128x66 (shapeCast S32x128x1 d shapeCasts_S32x128_S32x128x1) broadcasts_S32x128x1_S32x128x66)
    (iota .tc S32x128x66 32 [2] iota_S32x128x66_d2_w32)) natLt_1_32)

/-- A code spread into 6 one-hot lanes and converted. -/
def hot6 (d : IVec S32x128 32) : FVec F S32x128x6 .f32 :=
  sitofp .f32 (extui 32 (cmpi .eq
    (broadcastTo S32x128x6 (shapeCast S32x128x1 d shapeCasts_S32x128_S32x128x1) broadcasts_S32x128x1_S32x128x6)
    (iota .tc S32x128x6 32 [2] iota_S32x128x6_d2_w32)) natLt_1_32)

/-- A bit per pair converted into one lane. -/
def flagLane (b : IVec S32x128 1) : FVec F S32x128x1 .f32 :=
  shapeCast S32x128x1 (sitofp .f32 (extui 32 b natLt_1_32) : FVec F S32x128 .f32) shapeCasts_S32x128_S32x128x1

/-- The feature rows of the chunk's pairs: residue lanes, token lanes, the entity lane, copy lanes. -/
def features (ar rr er sr tr : IVec S32x1 32) (ac rc ec sc tc : IVec S1x128 32) : FVec F S32x128x139 .f32 :=
  concatenate S32x128x139 2
    [⟨S32x128x66, hot66 (F := F) (codeOf (samePair ar ac) rr rc 32#32 64#32 65#32)⟩,
     ⟨S32x128x66, hot66 (F := F) (codeOf (andi (samePair ar ac) (samePair rr rc)) tr tc 32#32 64#32 65#32)⟩,
     ⟨S32x128x1, flagLane (F := F) (samePair er ec)⟩,
     ⟨S32x128x6, hot6 (F := F) (codeOf (samePair er ec) sr sc 2#32 4#32 5#32)⟩]
    concatenates_S32x128x66_S32x128x66_S32x128x1_S32x128x6_S32x128x139_d2

/-- What the chunk stores: the feature rows times the table, laid out as 1 × 32 × 128 × 128. -/
def chunkVal (ar rr er sr tr : IVec S32x1 32) (ac rc ec sc tc : IVec S1x128 32) (W : Vec F S139x128 .f32) :
    FVec F S1x32x128x128 .f32 :=
  shapeCast S1x32x128x128
    (shapeCast S32x128x128
      (matmul dot_S4096x139_S139x128_S4096x128_1_0_0_1_n_n (some .fp32)
        (shapeCast S4096x139 (features (F := F) ar rr er sr tr ac rc ec sc tc) shapeCasts_S32x128x139_S4096x139) W
        (constant S4096x128 .f32 0x00000000#32))
      shapeCasts_S4096x128_S32x128x128)
    shapeCasts_S32x128x128_S1x32x128x128

end Cert.KernelIdeal.Chunk

end
-- ==== Proof.BlockDefs.lean ====
/-
  What one grid point leaves in the output's block.

  At grid point (i₀, i₁) the body runs four chunks; chunk κ loads rows 128·i₀ + 32·κ … + 31 of the five word columns and
  columns 128·i₁ … + 127 of the five word rows, and stores its 32 × 128 × 128 values into rows 32·κ … of the block. So
  the block's element (0, r, q, z) is the pair value of row position 128·i₀ + r and column position 128·i₁ + q at channel z.
-/
import proofs.«414862_j78022375899177_3_alg».proof.Proof.Gen.KernelIdeal.Frame
import proofs.«414862_j78022375899177_3_alg».proof.Proof.Chunk
import proofs.«414862_j78022375899177_3_alg».proof.Proof.PairValue
import Idealize.ShloMosaic.Lib.Pipeline.Value

set_option maxRecDepth 16384

noncomputable section

namespace Cert.KernelIdeal.Block

open Cert.KernelIdeal Cert.KernelIdeal.Gen Cert.KernelIdeal.Chunk Cert.RelPos
open Idealize.ShloMosaic Idealize.ShloMosaic.TcCoe Idealize.ShloMosaic.Tactic Idealize.ShloMosaic.ValueIdx
open Idealize.SL Idealize.SL.Sem

/-- The word of row position `n` in a word column (zero past the end, which no use reaches). -/
def rowWord (X : IVec S1024x1 32) (n : Nat) : BitVec 32 := if h : n < 1024 then X (ix2 ⟨n, h⟩ 0) else 0#32

/-- The word of column position `n` in a word row. -/
def colWord (X : IVec S1x1024 32) (n : Nat) : BitVec 32 := if h : n < 1024 then X (ix2 0 ⟨n, h⟩) else 0#32

/-- The block of grid point `i`: element (0, r, q, z) is the pair value of positions 128·i₀ + r and 128·i₁ + q. -/
def blockVal (i : grid0.Coords) (x0 x2 x4 x6 x8 : IVec S1024x1 32) (x1 x3 x5 x7 x9 : IVec S1x1024 32)
    (W : S139x128.Idx → EReal) : S1x128x128x128.Idx → EReal := fun y =>
  pairVal W (rowWord x0 (128 * (i 0).val + (y 1).val)) (rowWord x2 (128 * (i 0).val + (y 1).val))
    (rowWord x4 (128 * (i 0).val + (y 1).val)) (rowWord x6 (128 * (i 0).val + (y 1).val))
    (rowWord x8 (128 * (i 0).val + (y 1).val))
    (colWord x1 (128 * (i 1).val + (y 2).val)) (colWord x3 (128 * (i 1).val + (y 2).val))
    (colWord x5 (128 * (i 1).val + (y 2).val)) (colWord x7 (128 * (i 1).val + (y 2).val))
    (colWord x9 (128 * (i 1).val + (y 2).val)) (y 3)

/-- A load of 32 rows of a word column from row `n`, at its row `p`: the word of row position `n + p`. -/
theorem ld_row (X : Vec Ideal S1024x1 .i32) (off : Fin 2 → Nat) (n : Nat) (hoff : off = ![n, 0])
    (inb : ∀ a, off a + S32x1.size a ≤ S1024x1.size a) (p : Fin 32) :
    View.ld (Val := Elt Ideal) (e' := .i32) X (Rect.unit (s := S1024x1) off S32x1.size inb) (ix2 p 0)
      = rowWord X (n + p.val) := by
  subst hoff
  have hb : n + p.val < 1024 := by
    have h0 : n + 32 ≤ 1024 := inb 0
    have := p.isLt; omega
  unfold rowWord; rw [dif_pos hb]
  show X ((Rect.unit (s := S1024x1) ![n, 0] S32x1.size inb).idx (ix2 p 0)) = X (ix2 ⟨n + p.val, hb⟩ 0)
  congr 1; funext a; apply Fin.ext
  match a with
  | ⟨0, _⟩ => show n + 1 * p.val = n + p.val; omega
  | ⟨1, _⟩ => show 0 + 1 * 0 = 0; rfl

/-- A load of 128 columns of a word row from column `n`, at its column `q`: the word of column position `n + q`. -/
theorem ld_col (X : Vec Ideal S1x1024 .i32) (off : Fin 2 → Nat) (n : Nat) (hoff : off = ![0, n])
    (inb : ∀ a, off a + S1x128.size a ≤ S1x1024.size a) (q : Fin 128) :
    View.ld (Val := Elt Ideal) (e' := .i32) X (Rect.unit (s := S1x1024) off S1x128.size inb) (ix2 0 q)
      = colWord X (n + q.val) := by
  subst hoff
  have hb : n + q.val < 1024 := by
    have h0 : n + 128 ≤ 1024 := inb 1
    have := q.isLt; omega
  unfold colWord; rw [dif_pos hb]
  show X ((Rect.unit (s := S1x1024) ![0, n] S1x128.size inb).idx (ix2 0 q)) = X (ix2 0 ⟨n + q.val, hb⟩)
  congr 1; funext a; apply Fin.ext
  match a with
  | ⟨0, _⟩ => show 0 + 1 * 0 = 0; rfl
  | ⟨1, _⟩ => show n + 1 * q.val = n + q.val; omega

theorem zero2 : (![0, 0] : Fin 2 → Nat) = fun _ => 0 := funext fun a => by fin_cases a <;> rfl

end Cert.KernelIdeal.Block

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.ChunkValue.lean ====
/-
  The kernel chunk's value at an element.

  The chunk lays the 32 · 128 feature rows out as a 4096 × 139 matrix, multiplies it with the 139 × 128 table into a zero
  accumulator, and lays the product back out as 1 × 32 × 128 × 128. Read at element (0, p, q, z) this is the contraction
  of the feature row of pair (p, q) with the table's column z. Lane k of that feature row is, by the group k falls in,
  a lane of the one-hot code of the pair's residue code, of its token code, the same-entity flag, or a lane of the one-hot
  code of its copy code; so the contraction keeps one table row per group, and is the pair's value.
-/
import proofs.«414862_j78022375899177_3_alg».proof.Proof.Chunk
import proofs.«414862_j78022375899177_3_alg».proof.Proof.PairValue
import proofs.«414862_j78022375899177_3_alg».proof.Proof.LibPlainDot
import Idealize.ShloMosaic.Lib.Pipeline.Value

noncomputable section

namespace Cert.KernelIdeal.Chunk

open Cert.KernelIdeal Cert.KernelIdeal.Gen Idealize.ShloMosaic Idealize.ShloMosaic.ValueIdx Cert.RelPos

/-! ## The codes at a pair -/

/-- A word column spread over the 128 column positions reads, at pair `(p, q)`, the column's word of row `p`. -/
theorem spreadCol_at (x : IVec S32x1 32) (p : Fin 32) (q : Fin 128) :
    broadcastTo S32x128 x broadcasts_S32x1_S32x128 (ix2 p q) = x (ix2 p 0) :=
  broadcastTo_apply x broadcasts_S32x1_S32x128 (ix2 p q) (ix2 p 0) fun a =>
    match a with
    | ⟨0, _⟩ => rfl
    | ⟨1, _⟩ => rfl

/-- A word row spread over the 32 row positions reads, at pair `(p, q)`, the row's word of column `q`. -/
theorem spreadRow_at (x : IVec S1x128 32) (p : Fin 32) (q : Fin 128) :
    broadcastTo S32x128 x broadcasts_S1x128_S32x128 (ix2 p q) = x (ix2 0 q) :=
  broadcastTo_apply x broadcasts_S1x128_S32x128 (ix2 p q) (ix2 0 q) fun a =>
    match a with
    | ⟨0, _⟩ => rfl
    | ⟨1, _⟩ => rfl

/-- The pair-of-one-kind bit at pair `(p, q)`: the two words compared. -/
theorem samePair_at (xr : IVec S32x1 32) (xc : IVec S1x128 32) (p : Fin 32) (q : Fin 128) :
    samePair xr xc (ix2 p q) = IntOp.cmpi .eq (xr (ix2 p 0)) (xc (ix2 0 q)) := by
  show IntOp.cmpi .eq (broadcastTo S32x128 xr broadcasts_S32x1_S32x128 (ix2 p q))
    (broadcastTo S32x128 xc broadcasts_S1x128_S32x128 (ix2 p q)) = _
  rw [spreadCol_at, spreadRow_at]

/-- The code at pair `(p, q)`: the relative-position code of the pair's bit and words. -/
theorem codeOf_at (same : IVec S32x128 1) (xr : IVec S32x1 32) (xc : IVec S1x128 32) (off hi miss : BitVec 32)
    (p : Fin 32) (q : Fin 128) :
    codeOf same xr xc off hi miss (ix2 p q) = relCode (same (ix2 p q)) (xr (ix2 p 0)) (xc (ix2 0 q)) off hi miss := by
  show Scalar.select (same (ix2 p q))
    (IntOp.minsi hi (IntOp.maxsi 0#32
      (IntOp.addi (IntOp.subi (broadcastTo S32x128 xr broadcasts_S32x1_S32x128 (ix2 p q))
        (broadcastTo S32x128 xc broadcasts_S1x128_S32x128 (ix2 p q))) off))) miss = _
  rw [spreadCol_at, spreadRow_at]
  rfl

/-! ## The lane groups at a pair -/

/-- A code per pair, given a trailing unit axis and spread over 66 lanes, reads the pair's code at every lane. -/
theorem spread66_at (d : IVec S32x128 32) (p : Fin 32) (q : Fin 128) (j : Fin 66) :
    broadcastTo S32x128x66 (shapeCast S32x128x1 d shapeCasts_S32x128_S32x128x1) broadcasts_S32x128x1_S32x128x66 (ix3 p q j)
      = d (ix2 p q) := by
  refine (broadcastTo_apply (shapeCast S32x128x1 d shapeCasts_S32x128_S32x128x1) broadcasts_S32x128x1_S32x128x66
    (ix3 p q j) (ix3 p q 0) fun a =>
      match a with
      | ⟨0, _⟩ => rfl
      | ⟨1, _⟩ => rfl
      | ⟨2, _⟩ => rfl).trans ?_
  exact shapeCast_apply d shapeCasts_S32x128_S32x128x1 (ix3 p q 0) (ix2 p q) (by
    rw [Shape.rowMajor_val_two, Shape.rowMajor_val_three]
    show p.val * 128 + q.val = (p.val * 128 + q.val) * 1 + 0
    omega)

/-- The same over 6 lanes. -/
theorem spread6_at (d : IVec S32x128 32) (p : Fin 32) (q : Fin 128) (j : Fin 6) :
    broadcastTo S32x128x6 (shapeCast S32x128x1 d shapeCasts_S32x128_S32x128x1) broadcasts_S32x128x1_S32x128x6 (ix3 p q j)
      = d (ix2 p q) := by
  refine (broadcastTo_apply (shapeCast S32x128x1 d shapeCasts_S32x128_S32x128x1) broadcasts_S32x128x1_S32x128x6
    (ix3 p q j) (ix3 p q 0) fun a =>
      match a with
      | ⟨0, _⟩ => rfl
      | ⟨1, _⟩ => rfl
      | ⟨2, _⟩ => rfl).trans ?_
  exact shapeCast_apply d shapeCasts_S32x128_S32x128x1 (ix3 p q 0) (ix2 p q) (by
    rw [Shape.rowMajor_val_two, Shape.rowMajor_val_three]
    show p.val * 128 + q.val = (p.val * 128 + q.val) * 1 + 0
    omega)

/-- Lane `j` of a code's 66 one-hot lanes at pair `(p, q)`: `1` when the code's unsigned value is `j`, else `0`. -/
theorem hot66_at (d : IVec S32x128 32) (p : Fin 32) (q : Fin 128) (j : Fin 66) :
    hot66 (F := Ideal) d (ix3 p q j) = if (d (ix2 p q)).toNat = j.val then (1 : EReal) else 0 := by
  have e2 : iota .tc S32x128x66 32 [2] iota_S32x128x66_d2_w32 (ix3 p q j) = BitVec.ofNat 32 j.val :=
    iota_single_apply .tc S32x128x66 32 2 iota_S32x128x66_d2_w32 (ix3 p q j)
  show Scalar.sitofp (F := Ideal) .f32 (BitVec.setWidth 32 (IntOp.cmpi .eq
    (broadcastTo S32x128x66 (shapeCast S32x128x1 d shapeCasts_S32x128_S32x128x1) broadcasts_S32x128x1_S32x128x66 (ix3 p q j))
    (iota .tc S32x128x66 32 [2] iota_S32x128x66_d2_w32 (ix3 p q j)))) = _
  rw [spread66_at, e2]
  exact hot_lane _ j.val (by have := j.isLt; omega)

/-- Lane `j` of a code's 6 one-hot lanes at pair `(p, q)`. -/
theorem hot6_at (d : IVec S32x128 32) (p : Fin 32) (q : Fin 128) (j : Fin 6) :
    hot6 (F := Ideal) d (ix3 p q j) = if (d (ix2 p q)).toNat = j.val then (1 : EReal) else 0 := by
  have e2 : iota .tc S32x128x6 32 [2] iota_S32x128x6_d2_w32 (ix3 p q j) = BitVec.ofNat 32 j.val :=
    iota_single_apply .tc S32x128x6 32 2 iota_S32x128x6_d2_w32 (ix3 p q j)
  show Scalar.sitofp (F := Ideal) .f32 (BitVec.setWidth 32 (IntOp.cmpi .eq
    (broadcastTo S32x128x6 (shapeCast S32x128x1 d shapeCasts_S32x128_S32x128x1) broadcasts_S32x128x1_S32x128x6 (ix3 p q j))
    (iota .tc S32x128x6 32 [2] iota_S32x128x6_d2_w32 (ix3 p q j)))) = _
  rw [spread6_at, e2]
  exact hot_lane _ j.val (by have := j.isLt; omega)

/-- The lane made from the same-kind bit of a pair of words: the flag `1` where they agree, `0` where they differ. -/
theorem flagLane_at (xr : IVec S32x1 32) (xc : IVec S1x128 32) (p : Fin 32) (q : Fin 128) (j : Fin 1) :
    flagLane (F := Ideal) (samePair xr xc) (ix3 p q j) = entFlag (xr (ix2 p 0)) (xc (ix2 0 q)) := by
  refine (shapeCast_apply (sitofp .f32 (extui 32 (samePair xr xc) natLt_1_32) : FVec Ideal S32x128 .f32)
    shapeCasts_S32x128_S32x128x1 (ix3 p q j) (ix2 p q) (by
      rw [Shape.rowMajor_val_two, Shape.rowMajor_val_three]
      show p.val * 128 + q.val = (p.val * 128 + q.val) * 1 + j.val
      have := j.isLt
      omega)).trans ?_
  show Scalar.sitofp (F := Ideal) .f32 (BitVec.setWidth 32 (samePair xr xc (ix2 p q))) = _
  rw [samePair_at]
  exact flag_signed _ _

/-! ## The feature row of a pair -/

/-- Lane `k` of the feature row of pair `(p, q)`: the three codes' one-hot groups around the same-entity flag. -/
theorem features_at (ar rr er sr tr : IVec S32x1 32) (ac rc ec sc tc : IVec S1x128 32) (p : Fin 32) (q : Fin 128)
    (k : Fin 139) :
    features (F := Ideal) ar rr er sr tr ac rc ec sc tc (ix3 p q k)
      = featRow (resCode (ar (ix2 p 0)) (rr (ix2 p 0)) (ac (ix2 0 q)) (rc (ix2 0 q))).toNat
          (tokCode (ar (ix2 p 0)) (rr (ix2 p 0)) (tr (ix2 p 0)) (ac (ix2 0 q)) (rc (ix2 0 q)) (tc (ix2 0 q))).toNat
          (chainCode (er (ix2 p 0)) (sr (ix2 p 0)) (ec (ix2 0 q)) (sc (ix2 0 q))).toNat
          (entFlag (er (ix2 p 0)) (ec (ix2 0 q))) k := by
  have hk := k.isLt
  have key := concatenate_apply_piece (t := S32x128x139) (2 : Fin 3)
    [⟨S32x128x66, hot66 (F := Ideal) (codeOf (samePair ar ac) rr rc 32#32 64#32 65#32)⟩,
     ⟨S32x128x66, hot66 (F := Ideal) (codeOf (andi (samePair ar ac) (samePair rr rc)) tr tc 32#32 64#32 65#32)⟩,
     ⟨S32x128x1, flagLane (F := Ideal) (samePair er ec)⟩,
     ⟨S32x128x6, hot6 (F := Ideal) (codeOf (samePair er ec) sr sc 2#32 4#32 5#32)⟩]
    concatenates_S32x128x66_S32x128x66_S32x128x1_S32x128x6_S32x128x139_d2 (ix3 p q k)
  unfold featRow
  by_cases h1 : k.val < 66
  · rw [if_pos h1]
    refine (key 0 (by show 0 < 4; omega) S32x128x66 _ rfl rfl 0 rfl (ix3 p q ⟨k.val, h1⟩)
      (fun b => match b with
        | ⟨0, _⟩ => fun _ => rfl
        | ⟨1, _⟩ => fun _ => rfl
        | ⟨2, _⟩ => fun h => absurd rfl h)
      (by show 0 + k.val = k.val; omega)).trans ?_
    rw [hot66_at, codeOf_at, samePair_at]
    rfl
  rw [if_neg h1]
  by_cases h2 : k.val < 132
  · rw [if_pos h2]
    refine (key 1 (by show 1 < 4; omega) S32x128x66 _ rfl rfl 66 rfl (ix3 p q ⟨k.val - 66, by omega⟩)
      (fun b => match b with
        | ⟨0, _⟩ => fun _ => rfl
        | ⟨1, _⟩ => fun _ => rfl
        | ⟨2, _⟩ => fun h => absurd rfl h)
      (by show 66 + (k.val - 66) = k.val; omega)).trans ?_
    rw [hot66_at, codeOf_at]
    show (if (relCode (IntOp.andi (samePair ar ac (ix2 p q)) (samePair rr rc (ix2 p q))) (tr (ix2 p 0)) (tc (ix2 0 q))
      32#32 64#32 65#32).toNat = k.val - 66 then (1 : EReal) else 0) = _
    rw [samePair_at, samePair_at]
    rfl
  rw [if_neg h2]
  by_cases h3 : k.val < 133
  · rw [if_pos h3]
    refine (key 2 (by show 2 < 4; omega) S32x128x1 _ rfl rfl 132 rfl (ix3 p q ⟨k.val - 132, by omega⟩)
      (fun b => match b with
        | ⟨0, _⟩ => fun _ => rfl
        | ⟨1, _⟩ => fun _ => rfl
        | ⟨2, _⟩ => fun h => absurd rfl h)
      (by show 132 + (k.val - 132) = k.val; omega)).trans ?_
    exact flagLane_at er ec p q _
  rw [if_neg h3]
  refine (key 3 (by show 3 < 4; omega) S32x128x6 _ rfl rfl 133 rfl (ix3 p q ⟨k.val - 133, by omega⟩)
    (fun b => match b with
      | ⟨0, _⟩ => fun _ => rfl
      | ⟨1, _⟩ => fun _ => rfl
      | ⟨2, _⟩ => fun h => absurd rfl h)
    (by show 133 + (k.val - 133) = k.val; omega)).trans ?_
  rw [hot6_at, codeOf_at, samePair_at]
  rfl

/-! ## The product at an element -/

/-- The chunk's product is a plain one: `[4096, 139]` by `[139, 128]`, no batch axes. -/
theorem plainDot : Cert.Lib.PlainDot dot_S4096x139_S139x128_S4096x128_1_0_0_1_n_n :=
  ⟨rfl, rfl, rfl, rfl, rfl, rfl⟩

/-- Row `128 p + q` of the feature matrix is the feature row of pair `(p, q)`. -/
theorem featureMatrix_at (ar rr er sr tr : IVec S32x1 32) (ac rc ec sc tc : IVec S1x128 32) (p : Fin 32) (q : Fin 128)
    (h : p.val * 128 + q.val < 4096) (k : Fin 139) :
    shapeCast S4096x139 (features (F := Ideal) ar rr er sr tr ac rc ec sc tc) shapeCasts_S32x128x139_S4096x139
        (ix2 ⟨p.val * 128 + q.val, h⟩ k)
      = features (F := Ideal) ar rr er sr tr ac rc ec sc tc (ix3 p q k) :=
  shapeCast_apply _ shapeCasts_S32x128x139_S4096x139 (ix2 ⟨p.val * 128 + q.val, h⟩ k) (ix3 p q k) (by
    rw [Shape.rowMajor_val_two, Shape.rowMajor_val_three]
    show (p.val * 128 + q.val) * 139 + k.val = (p.val * 128 + q.val) * 139 + k.val
    rfl)

/-- **The chunk at an element**: the value of the pair of row position `p` and column position `q` at channel `z`. -/
theorem chunkVal_at (ar rr er sr tr : IVec S32x1 32) (ac rc ec sc tc : IVec S1x128 32) (W : Vec Ideal S139x128 .f32)
    (p : Fin 32) (q : Fin 128) (z : Fin 128) :
    chunkVal (F := Ideal) ar rr er sr tr ac rc ec sc tc W (ix4 ⟨0, Nat.one_pos⟩ p q z)
      = pairVal W (ar (ix2 p 0)) (rr (ix2 p 0)) (er (ix2 p 0)) (sr (ix2 p 0)) (tr (ix2 p 0))
          (ac (ix2 0 q)) (rc (ix2 0 q)) (ec (ix2 0 q)) (sc (ix2 0 q)) (tc (ix2 0 q)) z := by
  have ha : p.val * 128 + q.val < 4096 := by have := p.isLt; have := q.isLt; omega
  refine (shapeCast_apply _ shapeCasts_S32x128x128_S1x32x128x128 (ix4 ⟨0, Nat.one_pos⟩ p q z) (ix3 p q z) (by
    rw [Shape.rowMajor_val_three, Shape.rowMajor_val_four]
    show (p.val * 128 + q.val) * 128 + z.val = ((0 * 32 + p.val) * 128 + q.val) * 128 + z.val
    omega)).trans ?_
  refine (shapeCast_apply _ shapeCasts_S4096x128_S32x128x128 (ix3 p q z) (ix2 ⟨p.val * 128 + q.val, ha⟩ z) (by
    rw [Shape.rowMajor_val_two, Shape.rowMajor_val_three]
    show (p.val * 128 + q.val) * 128 + z.val = (p.val * 128 + q.val) * 128 + z.val
    rfl)).trans ?_
  refine (plainDot.matmul_zero_apply (some .fp32)
    (shapeCast S4096x139 (features (F := Ideal) ar rr er sr tr ac rc ec sc tc) shapeCasts_S32x128x139_S4096x139) W
    ⟨p.val * 128 + q.val, ha⟩ z).trans ?_
  exact sum_feature_eq_pairVal W _ _ _ _ _ _ _ _ _ _ z
    (fun k => shapeCast S4096x139 (features (F := Ideal) ar rr er sr tr ac rc ec sc tc) shapeCasts_S32x128x139_S4096x139
      (ix2 ⟨p.val * 128 + q.val, ha⟩ k))
    (fun k => (featureMatrix_at ar rr er sr tr ac rc ec sc tc p q ha k).trans
      (features_at ar rr er sr tr ac rc ec sc tc p q k))

end Cert.KernelIdeal.Chunk

end
-- ==== Proof.BlockPieces.lean ====
/-
  The four chunks' stores, and the block they tile.

  Each chunk's stored value, as the body computes it from its loads, is the chunk function of those loads; through
  its store's rectangle it is the block's function; the four rectangles tile the block.
-/
import proofs.«414862_j78022375899177_3_alg».proof.Proof.Gen.KernelIdeal.Frame
import proofs.«414862_j78022375899177_3_alg».proof.Proof.BlockDefs
import proofs.«414862_j78022375899177_3_alg».proof.Proof.ChunkValue
import Idealize.ShloMosaic.Lib.Pipeline.Value

set_option maxRecDepth 16384

noncomputable section

namespace Cert.KernelIdeal.Block

open Cert.KernelIdeal Cert.KernelIdeal.Gen Cert.KernelIdeal.Chunk Cert.RelPos
open Idealize.ShloMosaic Idealize.ShloMosaic.TcCoe Idealize.ShloMosaic.Tactic Idealize.ShloMosaic.ValueIdx
open Idealize.SL Idealize.SL.Sem

/-- Chunk 3's stored value, as the body computes it from the chunk's ten loads and the table, is the chunk function of
    those loads (each passed through the body's same-shape cast). -/
theorem tower3 {F : FTy → Type} [FloatOps F] (a0 a2 a4 a6 a8 : Vec F S32x1 .i32) (b1 b3 b5 b7 b9 : Vec F S1x128 .i32)
    (w : Vec F S139x128 .f32) :
    k0_pay46 (k0_pay4 b7) w (k0_pay40 a6) (k0_pay41 (k0_pay1 b1) a0) (k0_pay42 (k0_pay2 b3) a2) (k0_pay43 (k0_pay3 b5) a4) (k0_pay44 (k0_pay1 b1) (k0_pay2 b3) a0 a2) (k0_pay45 (k0_pay5 b9) a8) (32#32)
      = chunkVal (F := F) (shapeCast S32x1 a0 shapeCasts_S32x1_S32x1) (shapeCast S32x1 a2 shapeCasts_S32x1_S32x1) (shapeCast S32x1 a4 shapeCasts_S32x1_S32x1) (shapeCast S32x1 a6 shapeCasts_S32x1_S32x1) (shapeCast S32x1 a8 shapeCasts_S32x1_S32x1)
        (shapeCast S1x128 b1 shapeCasts_S1x128_S1x128) (shapeCast S1x128 b3 shapeCasts_S1x128_S1x128) (shapeCast S1x128 b5 shapeCasts_S1x128_S1x128) (shapeCast S1x128 b7 shapeCasts_S1x128_S1x128) (shapeCast S1x128 b9 shapeCasts_S1x128_S1x128) w := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, chunkVal, features, hot66, hot6, flagLane, codeOf, samePair]

/-- Chunk 2's stored value, as the body computes it from the chunk's ten loads and the table, is the chunk function of
    those loads (each passed through the body's same-shape cast). -/
theorem tower2 {F : FTy → Type} [FloatOps F] (a0 a2 a4 a6 a8 : Vec F S32x1 .i32) (b1 b3 b5 b7 b9 : Vec F S1x128 .i32)
    (w : Vec F S139x128 .f32) :
    k0_pay38 (k0_pay37 (k0_pay4 b7) (k0_pay5 b9) w (k0_pay31 a6) (k0_pay32 a8) (k0_pay33 (k0_pay1 b1) a0) (k0_pay34 (k0_pay2 b3) a2) (k0_pay35 (k0_pay3 b5) a4) (k0_pay36 (k0_pay2 b3) a2))
      = chunkVal (F := F) (shapeCast S32x1 a0 shapeCasts_S32x1_S32x1) (shapeCast S32x1 a2 shapeCasts_S32x1_S32x1) (shapeCast S32x1 a4 shapeCasts_S32x1_S32x1) (shapeCast S32x1 a6 shapeCasts_S32x1_S32x1) (shapeCast S32x1 a8 shapeCasts_S32x1_S32x1)
        (shapeCast S1x128 b1 shapeCasts_S1x128_S1x128) (shapeCast S1x128 b3 shapeCasts_S1x128_S1x128) (shapeCast S1x128 b5 shapeCasts_S1x128_S1x128) (shapeCast S1x128 b7 shapeCasts_S1x128_S1x128) (shapeCast S1x128 b9 shapeCasts_S1x128_S1x128) w := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, chunkVal, features, hot66, hot6, flagLane, codeOf, samePair]

/-- Chunk 1's stored value, as the body computes it from the chunk's ten loads and the table, is the chunk function of
    those loads (each passed through the body's same-shape cast). -/
theorem tower1 {F : FTy → Type} [FloatOps F] (a0 a2 a4 a6 a8 : Vec F S32x1 .i32) (b1 b3 b5 b7 b9 : Vec F S1x128 .i32)
    (w : Vec F S139x128 .f32) :
    k0_pay29 w (k0_pay25 (k0_pay20 (k0_pay1 b1) a0) (k0_pay23 (k0_pay2 b3) a2) k0_pay24) (k0_pay26 (k0_pay5 b9) (k0_pay19 a8) (k0_pay20 (k0_pay1 b1) a0) (k0_pay21 (k0_pay2 b3) a2)) (k0_pay27 (k0_pay4 b7) (k0_pay18 a6) (k0_pay22 (k0_pay3 b5) a4)) (k0_pay28 (k0_pay22 (k0_pay3 b5) a4))
      = chunkVal (F := F) (shapeCast S32x1 a0 shapeCasts_S32x1_S32x1) (shapeCast S32x1 a2 shapeCasts_S32x1_S32x1) (shapeCast S32x1 a4 shapeCasts_S32x1_S32x1) (shapeCast S32x1 a6 shapeCasts_S32x1_S32x1) (shapeCast S32x1 a8 shapeCasts_S32x1_S32x1)
        (shapeCast S1x128 b1 shapeCasts_S1x128_S1x128) (shapeCast S1x128 b3 shapeCasts_S1x128_S1x128) (shapeCast S1x128 b5 shapeCasts_S1x128_S1x128) (shapeCast S1x128 b7 shapeCasts_S1x128_S1x128) (shapeCast S1x128 b9 shapeCasts_S1x128_S1x128) w := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, chunkVal, features, hot66, hot6, flagLane, codeOf, samePair]

/-- Chunk 0's stored value, as the body computes it from the chunk's ten loads and the table, is the chunk function of
    those loads (each passed through the body's same-shape cast). -/
theorem tower0 {F : FTy → Type} [FloatOps F] (a0 a2 a4 a6 a8 : Vec F S32x1 .i32) (b1 b3 b5 b7 b9 : Vec F S1x128 .i32)
    (w : Vec F S139x128 .f32) :
    k0_pay16 w (k0_pay12 (k0_pay3 b5) (k0_pay11 a4)) (k0_pay13 (k0_pay3 b5) (k0_pay4 b7) (k0_pay7 a6) (k0_pay11 a4)) (k0_pay14 (k0_pay2 b3) (k0_pay6 a2) (k0_pay9 b1 a0)) (k0_pay15 (k0_pay5 b9) (k0_pay8 a8) (k0_pay9 b1 a0) (k0_pay10 b3 a2)) (iota Kind.tc S32x128x6 32 [2] iota_S32x128x6_d2_w32)
      = chunkVal (F := F) (shapeCast S32x1 a0 shapeCasts_S32x1_S32x1) (shapeCast S32x1 a2 shapeCasts_S32x1_S32x1) (shapeCast S32x1 a4 shapeCasts_S32x1_S32x1) (shapeCast S32x1 a6 shapeCasts_S32x1_S32x1) (shapeCast S32x1 a8 shapeCasts_S32x1_S32x1)
        (shapeCast S1x128 b1 shapeCasts_S1x128_S1x128) (shapeCast S1x128 b3 shapeCasts_S1x128_S1x128) (shapeCast S1x128 b5 shapeCasts_S1x128_S1x128) (shapeCast S1x128 b7 shapeCasts_S1x128_S1x128) (shapeCast S1x128 b9 shapeCasts_S1x128_S1x128) w := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, chunkVal, features, hot66, hot6, flagLane, codeOf, samePair]

/-- Chunk `κ` of grid point `i`, computed from the loads it makes, is the block's function through the rectangle it
    stores to (rows 32·κ … 32·κ + 31 of the block). -/
theorem chunk_piece (i : grid0.Coords) (x0 x2 x4 x6 x8 : Vec Ideal S1024x1 .i32) (x1 x3 x5 x7 x9 : Vec Ideal S1x1024 .i32)
    (W : Vec Ideal S139x128 .f32) (κ : Nat) (offr offc : Fin 2 → Nat) (offo : Fin 4 → Nat)
    (hr : offr = ![128 * (i 0).val + 32 * κ, 0]) (hc : offc = ![0, 128 * (i 1).val]) (ho : offo = ![0, 32 * κ, 0, 0])
    (inbr : ∀ a, offr a + S32x1.size a ≤ S1024x1.size a) (inbc : ∀ a, offc a + S1x128.size a ≤ S1x1024.size a)
    (inbW : ∀ a, (![0, 0] : Fin 2 → Nat) a + S139x128.size a ≤ S139x128.size a)
    (inbo : ∀ a, offo a + S1x32x128x128.size a ≤ S1x128x128x128.size a) (x : S1x32x128x128.Idx) :
    chunkVal (F := Ideal) (View.ld (Val := Elt Ideal) (e' := .i32) x0 (Rect.unit (s := S1024x1) offr S32x1.size inbr)) (View.ld (Val := Elt Ideal) (e' := .i32) x2 (Rect.unit (s := S1024x1) offr S32x1.size inbr))
        (View.ld (Val := Elt Ideal) (e' := .i32) x4 (Rect.unit (s := S1024x1) offr S32x1.size inbr)) (View.ld (Val := Elt Ideal) (e' := .i32) x6 (Rect.unit (s := S1024x1) offr S32x1.size inbr))
        (View.ld (Val := Elt Ideal) (e' := .i32) x8 (Rect.unit (s := S1024x1) offr S32x1.size inbr))
        (View.ld (Val := Elt Ideal) (e' := .i32) x1 (Rect.unit (s := S1x1024) offc S1x128.size inbc)) (View.ld (Val := Elt Ideal) (e' := .i32) x3 (Rect.unit (s := S1x1024) offc S1x128.size inbc))
        (View.ld (Val := Elt Ideal) (e' := .i32) x5 (Rect.unit (s := S1x1024) offc S1x128.size inbc)) (View.ld (Val := Elt Ideal) (e' := .i32) x7 (Rect.unit (s := S1x1024) offc S1x128.size inbc))
        (View.ld (Val := Elt Ideal) (e' := .i32) x9 (Rect.unit (s := S1x1024) offc S1x128.size inbc))
        (View.ld (Val := Elt Ideal) (e' := .f32) W (Rect.unit (s := S139x128) ![0, 0] S139x128.size inbW)) x
      = blockVal i x0 x2 x4 x6 x8 x1 x3 x5 x7 x9 W ((Rect.unit (s := S1x128x128x128) offo S1x32x128x128.size inbo).emb x) := by
  subst ho
  obtain ⟨p, q, z, rfl⟩ : ∃ (p : Fin 32) (q : Fin 128) (z : Fin 128), x = ix4 ⟨0, Nat.one_pos⟩ p q z :=
    ⟨x 1, x 2, x 3, by
      have h := eq_ix4 x
      have h0 : x 0 = ⟨0, Nat.one_pos⟩ := Fin.ext (by have h1 : (x 0).val < 1 := (x 0).isLt; show (x 0).val = 0; omega)
      rw [h0] at h; exact h⟩
  rw [View.ld_unit_zero (Val := Elt Ideal) (S := S139x128) zero2 inbW W, chunkVal_at]
  unfold blockVal
  have e1 : (((Rect.unit (s := S1x128x128x128) ![0, 32 * κ, 0, 0] S1x32x128x128.size inbo).emb (ix4 ⟨0, Nat.one_pos⟩ p q z)) 1 : Nat) = 32 * κ + p.val := by
    show 32 * κ + 1 * p.val = _; omega
  have e2 : (((Rect.unit (s := S1x128x128x128) ![0, 32 * κ, 0, 0] S1x32x128x128.size inbo).emb (ix4 ⟨0, Nat.one_pos⟩ p q z)) 2 : Nat) = q.val := by
    show 0 + 1 * q.val = _; omega
  have e3 : ((Rect.unit (s := S1x128x128x128) ![0, 32 * κ, 0, 0] S1x32x128x128.size inbo).emb (ix4 ⟨0, Nat.one_pos⟩ p q z)) 3 = z := by
    apply Fin.ext; show 0 + 1 * z.val = _; omega
  rw [e1, e2, e3, ld_row x0 offr _ hr inbr p, ld_row x2 offr _ hr inbr p, ld_row x4 offr _ hr inbr p,
    ld_row x6 offr _ hr inbr p, ld_row x8 offr _ hr inbr p, ld_col x1 offc _ hc inbc q, ld_col x3 offc _ hc inbc q,
    ld_col x5 offc _ hc inbc q, ld_col x7 offc _ hc inbc q, ld_col x9 offc _ hc inbc q]
  simp only [Nat.add_assoc]

/-- What the body leaves in the output's block at grid point `i`: the four chunks' stores tile the block, and each is the
    block's function through its rectangle. -/
theorem out_block (c : Dev nD) (i : grid0.Coords) (arg2 : Memref sig .tc .vmem S1024x1 .i32) (harg2 : arg2.IsWhole) (arg3 : Memref sig .tc .vmem S1x1024 .i32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1024x1 .i32) (harg10 : arg10.IsWhole) (arg11 : Memref sig .tc .vmem S1x1024 .i32) (harg11 : arg11.IsWhole) (arg12 : Memref sig .tc .vmem S139x128 .f32) (harg12 : arg12.IsWhole) (arg13 : Memref sig .tc .vmem S1x128x128x128 .f32) (harg13 : arg13.IsWhole)
    (x0 : Vec Ideal S1024x1 .i32) (x1 : Vec Ideal S1x1024 .i32) (x2 : Vec Ideal S1024x1 .i32) (x3 : Vec Ideal S1x1024 .i32) (x4 : Vec Ideal S1024x1 .i32) (x5 : Vec Ideal S1x1024 .i32) (x6 : Vec Ideal S1024x1 .i32) (x7 : Vec Ideal S1x1024 .i32) (x8 : Vec Ideal S1024x1 .i32) (x9 : Vec Ideal S1x1024 .i32) (x10 : Vec Ideal S139x128 .f32) :
    out0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = blockVal i x0 x2 x4 x6 x8 x1 x3 x5 x7 x9 x10 := by
  funext y
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  refine View.canon_apply_of_pieces (blockVal i x0 x2 x4 x6 x8 x1 x3 x5 x7 x9 x10) _ ?_ y
    (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 y)
  unfold kernelRun0_A
  dsimp only
  sl_unfold_words
  intro p hp x
  simp only [List.mem_cons, List.not_mem_nil, or_false] at hp
  rcases hp with rfl | rfl | rfl | rfl
  · simp only [View.readAt_eq_ld, harg2.read_unread, harg3.read_unread, harg4.read_unread, harg5.read_unread, harg6.read_unread, harg7.read_unread, harg8.read_unread, harg9.read_unread, harg10.read_unread, harg11.read_unread, harg12.read_unread]
    refine (congrFun (tower3 (F := Ideal) _ _ _ _ _ _ _ _ _ _ _) x).trans ?_
    simp only [shapeCast_self]
    exact chunk_piece i x0 x2 x4 x6 x8 x1 x3 x5 x7 x9 x10 3 (k0_off2 i (BitVec.ofNat 32 (32 * 3))) (k0_off1 i) ![0, 96, 0, 0]
      (k0_off2_eq i ⟨3, by decide⟩) (k0_off1_eq i) rfl (k0_off2_inb i ⟨3, by decide⟩) (k0_off1_inb i) inb_S139x128_S139x128_0_0 inb_S1x128x128x128_S1x32x128x128_0_96_0_0 x
  · simp only [View.readAt_eq_ld, harg2.read_unread, harg3.read_unread, harg4.read_unread, harg5.read_unread, harg6.read_unread, harg7.read_unread, harg8.read_unread, harg9.read_unread, harg10.read_unread, harg11.read_unread, harg12.read_unread]
    refine (congrFun (tower2 (F := Ideal) _ _ _ _ _ _ _ _ _ _ _) x).trans ?_
    simp only [shapeCast_self]
    exact chunk_piece i x0 x2 x4 x6 x8 x1 x3 x5 x7 x9 x10 2 (k0_off2 i (BitVec.ofNat 32 (32 * 2))) (k0_off1 i) ![0, 64, 0, 0]
      (k0_off2_eq i ⟨2, by decide⟩) (k0_off1_eq i) rfl (k0_off2_inb i ⟨2, by decide⟩) (k0_off1_inb i) inb_S139x128_S139x128_0_0 inb_S1x128x128x128_S1x32x128x128_0_64_0_0 x
  · simp only [View.readAt_eq_ld, harg2.read_unread, harg3.read_unread, harg4.read_unread, harg5.read_unread, harg6.read_unread, harg7.read_unread, harg8.read_unread, harg9.read_unread, harg10.read_unread, harg11.read_unread, harg12.read_unread]
    refine (congrFun (tower1 (F := Ideal) _ _ _ _ _ _ _ _ _ _ _) x).trans ?_
    simp only [shapeCast_self]
    exact chunk_piece i x0 x2 x4 x6 x8 x1 x3 x5 x7 x9 x10 1 (k0_off2 i (BitVec.ofNat 32 (32 * 1))) (k0_off1 i) ![0, 32, 0, 0]
      (k0_off2_eq i ⟨1, by decide⟩) (k0_off1_eq i) rfl (k0_off2_inb i ⟨1, by decide⟩) (k0_off1_inb i) inb_S139x128_S139x128_0_0 inb_S1x128x128x128_S1x32x128x128_0_32_0_0 x
  · simp only [View.readAt_eq_ld, harg2.read_unread, harg3.read_unread, harg4.read_unread, harg5.read_unread, harg6.read_unread, harg7.read_unread, harg8.read_unread, harg9.read_unread, harg10.read_unread, harg11.read_unread, harg12.read_unread]
    refine (congrFun (tower0 (F := Ideal) _ _ _ _ _ _ _ _ _ _ _) x).trans ?_
    simp only [shapeCast_self]
    exact chunk_piece i x0 x2 x4 x6 x8 x1 x3 x5 x7 x9 x10 0 (k0_off2 i (BitVec.ofNat 32 (32 * 0))) (k0_off1 i) ![0, 0, 0, 0]
      (k0_off2_eq i ⟨0, by decide⟩) (k0_off1_eq i) rfl (k0_off2_inb i ⟨0, by decide⟩) (k0_off1_inb i) inb_S139x128_S139x128_0_0 inb_S1x128x128x128_S1x32x128x128_0_0_0_0 x

end Cert.KernelIdeal.Block

end
-- ==== Proof.BlockInputs.lean ====
/-
  The input blocks as the body finds them, in terms of the arguments.

  Every input window is its whole array at every grid point: its block index is (0, 0) and its block has the array's
  extents, so position n of the block is position n of the array. The word columns [1024,1] and word rows [1,1024] are
  reshapes of the arguments [1,1024] (through [1024]); a reshape keeps row-major positions, and position n of a
  [1024,1] column, of a [1024] vector and of a [1,1024] row are all row-major position n, so position n of either is
  the argument's word at (0, n). The table's window is the table argument itself, which no host operation writes.
-/
import proofs.«414862_j78022375899177_3_alg».proof.Proof.Gen.KernelIdeal.Frame
import proofs.«414862_j78022375899177_3_alg».proof.Proof.BlockDefs
import Idealize.ShloMosaic.Lib.Pipeline.Value
import Idealize.ShloMosaic.Lib.StableHlo.Run
import Idealize.ShloMosaic.Lib.Tactic

noncomputable section

namespace Cert.KernelIdeal.Block

open Cert.KernelIdeal Cert.KernelIdeal.Gen
open Idealize.ShloMosaic Idealize.ShloMosaic.TcCoe Idealize.ShloMosaic.Tactic Idealize.ShloMosaic.ValueIdx Idealize.SL.Sem

variable (m : (ℓ : Loc nD τ sig) → Buf (Elt Ideal) ℓ)

/-! ## The reshapes read at a position -/

/-- A row `[1, 1024]` flattened to `[1024]` and stood up as a column `[1024, 1]`: row `n` of the column is entry `n` of the row. -/
theorem reshape_col_at {α : Type} (X : S1x1024.Idx → α) (n : Fin 1024) :
    shapeCast S1024x1 (shapeCast S1024 X shapeCasts_S1x1024_S1024) shapeCasts_S1024_S1024x1 (ix2 n 0) = X (ix2 0 n) := by
  refine (shapeCast_apply (shapeCast S1024 X shapeCasts_S1x1024_S1024) shapeCasts_S1024_S1024x1 (ix2 n 0) (ix1 n) (by
    rw [Shape.rowMajor_val_one, Shape.rowMajor_val_two]
    show n.val = n.val * 1 + 0
    omega)).trans ?_
  exact shapeCast_apply X shapeCasts_S1x1024_S1024 (ix1 n) (ix2 0 n) (by
    rw [Shape.rowMajor_val_two, Shape.rowMajor_val_one]
    show 0 * 1024 + n.val = n.val
    omega)

/-- A row `[1, 1024]` flattened to `[1024]` and laid out as a row again: entry `n` is entry `n`. -/
theorem reshape_row_at {α : Type} (X : S1x1024.Idx → α) (n : Fin 1024) :
    shapeCast S1x1024 (shapeCast S1024 X shapeCasts_S1x1024_S1024) shapeCasts_S1024_S1x1024 (ix2 0 n) = X (ix2 0 n) := by
  refine (shapeCast_apply (shapeCast S1024 X shapeCasts_S1x1024_S1024) shapeCasts_S1024_S1x1024 (ix2 0 n) (ix1 n) (by
    rw [Shape.rowMajor_val_one, Shape.rowMajor_val_two]
    show n.val = 0 * 1024 + n.val
    omega)).trans ?_
  exact shapeCast_apply X shapeCasts_S1x1024_S1024 (ix1 n) (ix2 0 n) (by
    rw [Shape.rowMajor_val_two, Shape.rowMajor_val_one]
    show 0 * 1024 + n.val = n.val
    omega)

/-! ## The word columns and word rows as the region finds them -/

/-- The array `main_v1` when the region is entered: argument 0 flattened and laid out as a column. -/
theorem V_v1 (c : Dev nD) :
    (V m c main_v1 : S1024x1.Idx → BitVec 32)
      = shapeCast S1024x1 (shapeCast S1024 (m ((c : Thread nD τ).loc main_arg0) : S1x1024.Idx → BitVec 32)
          shapeCasts_S1x1024_S1024) shapeCasts_S1024_S1024x1 := by
  dsimp only [Gen.V, Gen.hostOps0]
  after_results
  rfl

/-- The array `main_v2` when the region is entered: argument 0 flattened and laid out as a row. -/
theorem V_v2 (c : Dev nD) :
    (V m c main_v2 : S1x1024.Idx → BitVec 32)
      = shapeCast S1x1024 (shapeCast S1024 (m ((c : Thread nD τ).loc main_arg0) : S1x1024.Idx → BitVec 32)
          shapeCasts_S1x1024_S1024) shapeCasts_S1024_S1x1024 := by
  dsimp only [Gen.V, Gen.hostOps0]
  after_results
  rfl

/-- The array `main_v4` when the region is entered: argument 1 flattened and laid out as a column. -/
theorem V_v4 (c : Dev nD) :
    (V m c main_v4 : S1024x1.Idx → BitVec 32)
      = shapeCast S1024x1 (shapeCast S1024 (m ((c : Thread nD τ).loc main_arg1) : S1x1024.Idx → BitVec 32)
          shapeCasts_S1x1024_S1024) shapeCasts_S1024_S1024x1 := by
  dsimp only [Gen.V, Gen.hostOps0]
  after_results
  rfl

/-- The array `main_v5` when the region is entered: argument 1 flattened and laid out as a row. -/
theorem V_v5 (c : Dev nD) :
    (V m c main_v5 : S1x1024.Idx → BitVec 32)
      = shapeCast S1x1024 (shapeCast S1024 (m ((c : Thread nD τ).loc main_arg1) : S1x1024.Idx → BitVec 32)
          shapeCasts_S1x1024_S1024) shapeCasts_S1024_S1x1024 := by
  dsimp only [Gen.V, Gen.hostOps0]
  after_results
  rfl

/-- The array `main_v7` when the region is entered: argument 2 flattened and laid out as a column. -/
theorem V_v7 (c : Dev nD) :
    (V m c main_v7 : S1024x1.Idx → BitVec 32)
      = shapeCast S1024x1 (shapeCast S1024 (m ((c : Thread nD τ).loc main_arg2) : S1x1024.Idx → BitVec 32)
          shapeCasts_S1x1024_S1024) shapeCasts_S1024_S1024x1 := by
  dsimp only [Gen.V, Gen.hostOps0]
  after_results
  rfl

/-- The array `main_v8` when the region is entered: argument 2 flattened and laid out as a row. -/
theorem V_v8 (c : Dev nD) :
    (V m c main_v8 : S1x1024.Idx → BitVec 32)
      = shapeCast S1x1024 (shapeCast S1024 (m ((c : Thread nD τ).loc main_arg2) : S1x1024.Idx → BitVec 32)
          shapeCasts_S1x1024_S1024) shapeCasts_S1024_S1x1024 := by
  dsimp only [Gen.V, Gen.hostOps0]
  after_results
  rfl

/-- The array `main_v10` when the region is entered: argument 3 flattened and laid out as a column. -/
theorem V_v10 (c : Dev nD) :
    (V m c main_v10 : S1024x1.Idx → BitVec 32)
      = shapeCast S1024x1 (shapeCast S1024 (m ((c : Thread nD τ).loc main_arg3) : S1x1024.Idx → BitVec 32)
          shapeCasts_S1x1024_S1024) shapeCasts_S1024_S1024x1 := by
  dsimp only [Gen.V, Gen.hostOps0]
  after_results
  rfl

/-- The array `main_v11` when the region is entered: argument 3 flattened and laid out as a row. -/
theorem V_v11 (c : Dev nD) :
    (V m c main_v11 : S1x1024.Idx → BitVec 32)
      = shapeCast S1x1024 (shapeCast S1024 (m ((c : Thread nD τ).loc main_arg3) : S1x1024.Idx → BitVec 32)
          shapeCasts_S1x1024_S1024) shapeCasts_S1024_S1x1024 := by
  dsimp only [Gen.V, Gen.hostOps0]
  after_results
  rfl

/-- The array `main_v13` when the region is entered: argument 4 flattened and laid out as a column. -/
theorem V_v13 (c : Dev nD) :
    (V m c main_v13 : S1024x1.Idx → BitVec 32)
      = shapeCast S1024x1 (shapeCast S1024 (m ((c : Thread nD τ).loc main_arg4) : S1x1024.Idx → BitVec 32)
          shapeCasts_S1x1024_S1024) shapeCasts_S1024_S1024x1 := by
  dsimp only [Gen.V, Gen.hostOps0]
  after_results
  rfl

/-- The array `main_v14` when the region is entered: argument 4 flattened and laid out as a row. -/
theorem V_v14 (c : Dev nD) :
    (V m c main_v14 : S1x1024.Idx → BitVec 32)
      = shapeCast S1x1024 (shapeCast S1024 (m ((c : Thread nD τ).loc main_arg4) : S1x1024.Idx → BitVec 32)
          shapeCasts_S1x1024_S1024) shapeCasts_S1024_S1x1024 := by
  dsimp only [Gen.V, Gen.hostOps0]
  after_results
  rfl

/-! ## The windows' blocks: each is its whole array -/

/-- Window 0's block at any grid point, at position `n`: the array `main_v1` there (the block index is `(0, 0)` and the block is the whole array). -/
theorem iblk0_at (c : Dev nD) (t : Fin cfg0.N) (n : Fin 1024) :
    (iblk m c 0 t : S1024x1.Idx → BitVec 32) (ix2 n 0) = (V m c main_v1 : S1024x1.Idx → BitVec 32) (ix2 n 0) := by
  have hi : ∀ t : Fin grid0.N, win0_0.index t 0 = 0 ∧ win0_0.index t 1 = 0 := by decide +kernel
  unfold iblk
  rw [View.read_apply]
  show V m c main_v1 _ = V m c main_v1 _
  congr 1
  funext a
  apply Fin.ext
  match a with
  | ⟨0, _⟩ => show win0_0.index t 0 * 1024 + 1 * n.val = n.val; rw [(hi t).1]; omega
  | ⟨1, _⟩ => show win0_0.index t 1 * 1 + 1 * 0 = 0; rw [(hi t).2]

/-- Window 1's block at any grid point, at position `n`: the array `main_v2` there (the block index is `(0, 0)` and the block is the whole array). -/
theorem iblk1_at (c : Dev nD) (t : Fin cfg0.N) (n : Fin 1024) :
    (iblk m c 1 t : S1x1024.Idx → BitVec 32) (ix2 0 n) = (V m c main_v2 : S1x1024.Idx → BitVec 32) (ix2 0 n) := by
  have hi : ∀ t : Fin grid0.N, win0_1.index t 0 = 0 ∧ win0_1.index t 1 = 0 := by decide +kernel
  unfold iblk
  rw [View.read_apply]
  show V m c main_v2 _ = V m c main_v2 _
  congr 1
  funext a
  apply Fin.ext
  match a with
  | ⟨0, _⟩ => show win0_1.index t 0 * 1 + 1 * 0 = 0; rw [(hi t).1]
  | ⟨1, _⟩ => show win0_1.index t 1 * 1024 + 1 * n.val = n.val; rw [(hi t).2]; omega

/-- Window 2's block at any grid point, at position `n`: the array `main_v4` there (the block index is `(0, 0)` and the block is the whole array). -/
theorem iblk2_at (c : Dev nD) (t : Fin cfg0.N) (n : Fin 1024) :
    (iblk m c 2 t : S1024x1.Idx → BitVec 32) (ix2 n 0) = (V m c main_v4 : S1024x1.Idx → BitVec 32) (ix2 n 0) := by
  have hi : ∀ t : Fin grid0.N, win0_2.index t 0 = 0 ∧ win0_2.index t 1 = 0 := by decide +kernel
  unfold iblk
  rw [View.read_apply]
  show V m c main_v4 _ = V m c main_v4 _
  congr 1
  funext a
  apply Fin.ext
  match a with
  | ⟨0, _⟩ => show win0_2.index t 0 * 1024 + 1 * n.val = n.val; rw [(hi t).1]; omega
  | ⟨1, _⟩ => show win0_2.index t 1 * 1 + 1 * 0 = 0; rw [(hi t).2]

/-- Window 3's block at any grid point, at position `n`: the array `main_v5` there (the block index is `(0, 0)` and the block is the whole array). -/
theorem iblk3_at (c : Dev nD) (t : Fin cfg0.N) (n : Fin 1024) :
    (iblk m c 3 t : S1x1024.Idx → BitVec 32) (ix2 0 n) = (V m c main_v5 : S1x1024.Idx → BitVec 32) (ix2 0 n) := by
  have hi : ∀ t : Fin grid0.N, win0_3.index t 0 = 0 ∧ win0_3.index t 1 = 0 := by decide +kernel
  unfold iblk
  rw [View.read_apply]
  show V m c main_v5 _ = V m c main_v5 _
  congr 1
  funext a
  apply Fin.ext
  match a with
  | ⟨0, _⟩ => show win0_3.index t 0 * 1 + 1 * 0 = 0; rw [(hi t).1]
  | ⟨1, _⟩ => show win0_3.index t 1 * 1024 + 1 * n.val = n.val; rw [(hi t).2]; omega

/-- Window 4's block at any grid point, at position `n`: the array `main_v7` there (the block index is `(0, 0)` and the block is the whole array). -/
theorem iblk4_at (c : Dev nD) (t : Fin cfg0.N) (n : Fin 1024) :
    (iblk m c 4 t : S1024x1.Idx → BitVec 32) (ix2 n 0) = (V m c main_v7 : S1024x1.Idx → BitVec 32) (ix2 n 0) := by
  have hi : ∀ t : Fin grid0.N, win0_4.index t 0 = 0 ∧ win0_4.index t 1 = 0 := by decide +kernel
  unfold iblk
  rw [View.read_apply]
  show V m c main_v7 _ = V m c main_v7 _
  congr 1
  funext a
  apply Fin.ext
  match a with
  | ⟨0, _⟩ => show win0_4.index t 0 * 1024 + 1 * n.val = n.val; rw [(hi t).1]; omega
  | ⟨1, _⟩ => show win0_4.index t 1 * 1 + 1 * 0 = 0; rw [(hi t).2]

/-- Window 5's block at any grid point, at position `n`: the array `main_v8` there (the block index is `(0, 0)` and the block is the whole array). -/
theorem iblk5_at (c : Dev nD) (t : Fin cfg0.N) (n : Fin 1024) :
    (iblk m c 5 t : S1x1024.Idx → BitVec 32) (ix2 0 n) = (V m c main_v8 : S1x1024.Idx → BitVec 32) (ix2 0 n) := by
  have hi : ∀ t : Fin grid0.N, win0_5.index t 0 = 0 ∧ win0_5.index t 1 = 0 := by decide +kernel
  unfold iblk
  rw [View.read_apply]
  show V m c main_v8 _ = V m c main_v8 _
  congr 1
  funext a
  apply Fin.ext
  match a with
  | ⟨0, _⟩ => show win0_5.index t 0 * 1 + 1 * 0 = 0; rw [(hi t).1]
  | ⟨1, _⟩ => show win0_5.index t 1 * 1024 + 1 * n.val = n.val; rw [(hi t).2]; omega

/-- Window 6's block at any grid point, at position `n`: the array `main_v10` there (the block index is `(0, 0)` and the block is the whole array). -/
theorem iblk6_at (c : Dev nD) (t : Fin cfg0.N) (n : Fin 1024) :
    (iblk m c 6 t : S1024x1.Idx → BitVec 32) (ix2 n 0) = (V m c main_v10 : S1024x1.Idx → BitVec 32) (ix2 n 0) := by
  have hi : ∀ t : Fin grid0.N, win0_6.index t 0 = 0 ∧ win0_6.index t 1 = 0 := by decide +kernel
  unfold iblk
  rw [View.read_apply]
  show V m c main_v10 _ = V m c main_v10 _
  congr 1
  funext a
  apply Fin.ext
  match a with
  | ⟨0, _⟩ => show win0_6.index t 0 * 1024 + 1 * n.val = n.val; rw [(hi t).1]; omega
  | ⟨1, _⟩ => show win0_6.index t 1 * 1 + 1 * 0 = 0; rw [(hi t).2]

/-- Window 7's block at any grid point, at position `n`: the array `main_v11` there (the block index is `(0, 0)` and the block is the whole array). -/
theorem iblk7_at (c : Dev nD) (t : Fin cfg0.N) (n : Fin 1024) :
    (iblk m c 7 t : S1x1024.Idx → BitVec 32) (ix2 0 n) = (V m c main_v11 : S1x1024.Idx → BitVec 32) (ix2 0 n) := by
  have hi : ∀ t : Fin grid0.N, win0_7.index t 0 = 0 ∧ win0_7.index t 1 = 0 := by decide +kernel
  unfold iblk
  rw [View.read_apply]
  show V m c main_v11 _ = V m c main_v11 _
  congr 1
  funext a
  apply Fin.ext
  match a with
  | ⟨0, _⟩ => show win0_7.index t 0 * 1 + 1 * 0 = 0; rw [(hi t).1]
  | ⟨1, _⟩ => show win0_7.index t 1 * 1024 + 1 * n.val = n.val; rw [(hi t).2]; omega

/-- Window 8's block at any grid point, at position `n`: the array `main_v13` there (the block index is `(0, 0)` and the block is the whole array). -/
theorem iblk8_at (c : Dev nD) (t : Fin cfg0.N) (n : Fin 1024) :
    (iblk m c 8 t : S1024x1.Idx → BitVec 32) (ix2 n 0) = (V m c main_v13 : S1024x1.Idx → BitVec 32) (ix2 n 0) := by
  have hi : ∀ t : Fin grid0.N, win0_8.index t 0 = 0 ∧ win0_8.index t 1 = 0 := by decide +kernel
  unfold iblk
  rw [View.read_apply]
  show V m c main_v13 _ = V m c main_v13 _
  congr 1
  funext a
  apply Fin.ext
  match a with
  | ⟨0, _⟩ => show win0_8.index t 0 * 1024 + 1 * n.val = n.val; rw [(hi t).1]; omega
  | ⟨1, _⟩ => show win0_8.index t 1 * 1 + 1 * 0 = 0; rw [(hi t).2]

/-- Window 9's block at any grid point, at position `n`: the array `main_v14` there (the block index is `(0, 0)` and the block is the whole array). -/
theorem iblk9_at (c : Dev nD) (t : Fin cfg0.N) (n : Fin 1024) :
    (iblk m c 9 t : S1x1024.Idx → BitVec 32) (ix2 0 n) = (V m c main_v14 : S1x1024.Idx → BitVec 32) (ix2 0 n) := by
  have hi : ∀ t : Fin grid0.N, win0_9.index t 0 = 0 ∧ win0_9.index t 1 = 0 := by decide +kernel
  unfold iblk
  rw [View.read_apply]
  show V m c main_v14 _ = V m c main_v14 _
  congr 1
  funext a
  apply Fin.ext
  match a with
  | ⟨0, _⟩ => show win0_9.index t 0 * 1 + 1 * 0 = 0; rw [(hi t).1]
  | ⟨1, _⟩ => show win0_9.index t 1 * 1024 + 1 * n.val = n.val; rw [(hi t).2]; omega

/-! ## The blocks' words in terms of the arguments -/

/-- Position `n` of window 0's block (the chain word column) is argument 0's word at `(0, n)`. -/
theorem iblk0_row (c : Dev nD) (t : Fin cfg0.N) (n : Nat) :
    rowWord (iblk m c 0 t) n = colWord (m ((c : Thread nD τ).loc main_arg0)) n := by
  unfold rowWord colWord
  by_cases h : n < 1024
  · rw [dif_pos h, dif_pos h]
    refine (iblk0_at m c t ⟨n, h⟩).trans ?_
    rw [V_v1]
    exact reshape_col_at _ ⟨n, h⟩
  · rw [dif_neg h, dif_neg h]

/-- Position `n` of window 1's block (the chain word row) is argument 0's word at `(0, n)`. -/
theorem iblk1_col (c : Dev nD) (t : Fin cfg0.N) (n : Nat) :
    colWord (iblk m c 1 t) n = colWord (m ((c : Thread nD τ).loc main_arg0)) n := by
  unfold colWord
  by_cases h : n < 1024
  · rw [dif_pos h, dif_pos h]
    refine (iblk1_at m c t ⟨n, h⟩).trans ?_
    rw [V_v2]
    exact reshape_row_at _ ⟨n, h⟩
  · rw [dif_neg h, dif_neg h]

/-- Position `n` of window 2's block (the residue word column) is argument 1's word at `(0, n)`. -/
theorem iblk2_row (c : Dev nD) (t : Fin cfg0.N) (n : Nat) :
    rowWord (iblk m c 2 t) n = colWord (m ((c : Thread nD τ).loc main_arg1)) n := by
  unfold rowWord colWord
  by_cases h : n < 1024
  · rw [dif_pos h, dif_pos h]
    refine (iblk2_at m c t ⟨n, h⟩).trans ?_
    rw [V_v4]
    exact reshape_col_at _ ⟨n, h⟩
  · rw [dif_neg h, dif_neg h]

/-- Position `n` of window 3's block (the residue word row) is argument 1's word at `(0, n)`. -/
theorem iblk3_col (c : Dev nD) (t : Fin cfg0.N) (n : Nat) :
    colWord (iblk m c 3 t) n = colWord (m ((c : Thread nD τ).loc main_arg1)) n := by
  unfold colWord
  by_cases h : n < 1024
  · rw [dif_pos h, dif_pos h]
    refine (iblk3_at m c t ⟨n, h⟩).trans ?_
    rw [V_v5]
    exact reshape_row_at _ ⟨n, h⟩
  · rw [dif_neg h, dif_neg h]

/-- Position `n` of window 4's block (the entity word column) is argument 2's word at `(0, n)`. -/
theorem iblk4_row (c : Dev nD) (t : Fin cfg0.N) (n : Nat) :
    rowWord (iblk m c 4 t) n = colWord (m ((c : Thread nD τ).loc main_arg2)) n := by
  unfold rowWord colWord
  by_cases h : n < 1024
  · rw [dif_pos h, dif_pos h]
    refine (iblk4_at m c t ⟨n, h⟩).trans ?_
    rw [V_v7]
    exact reshape_col_at _ ⟨n, h⟩
  · rw [dif_neg h, dif_neg h]

/-- Position `n` of window 5's block (the entity word row) is argument 2's word at `(0, n)`. -/
theorem iblk5_col (c : Dev nD) (t : Fin cfg0.N) (n : Nat) :
    colWord (iblk m c 5 t) n = colWord (m ((c : Thread nD τ).loc main_arg2)) n := by
  unfold colWord
  by_cases h : n < 1024
  · rw [dif_pos h, dif_pos h]
    refine (iblk5_at m c t ⟨n, h⟩).trans ?_
    rw [V_v8]
    exact reshape_row_at _ ⟨n, h⟩
  · rw [dif_neg h, dif_neg h]

/-- Position `n` of window 6's block (the copy word column) is argument 3's word at `(0, n)`. -/
theorem iblk6_row (c : Dev nD) (t : Fin cfg0.N) (n : Nat) :
    rowWord (iblk m c 6 t) n = colWord (m ((c : Thread nD τ).loc main_arg3)) n := by
  unfold rowWord colWord
  by_cases h : n < 1024
  · rw [dif_pos h, dif_pos h]
    refine (iblk6_at m c t ⟨n, h⟩).trans ?_
    rw [V_v10]
    exact reshape_col_at _ ⟨n, h⟩
  · rw [dif_neg h, dif_neg h]

/-- Position `n` of window 7's block (the copy word row) is argument 3's word at `(0, n)`. -/
theorem iblk7_col (c : Dev nD) (t : Fin cfg0.N) (n : Nat) :
    colWord (iblk m c 7 t) n = colWord (m ((c : Thread nD τ).loc main_arg3)) n := by
  unfold colWord
  by_cases h : n < 1024
  · rw [dif_pos h, dif_pos h]
    refine (iblk7_at m c t ⟨n, h⟩).trans ?_
    rw [V_v11]
    exact reshape_row_at _ ⟨n, h⟩
  · rw [dif_neg h, dif_neg h]

/-- Position `n` of window 8's block (the token word column) is argument 4's word at `(0, n)`. -/
theorem iblk8_row (c : Dev nD) (t : Fin cfg0.N) (n : Nat) :
    rowWord (iblk m c 8 t) n = colWord (m ((c : Thread nD τ).loc main_arg4)) n := by
  unfold rowWord colWord
  by_cases h : n < 1024
  · rw [dif_pos h, dif_pos h]
    refine (iblk8_at m c t ⟨n, h⟩).trans ?_
    rw [V_v13]
    exact reshape_col_at _ ⟨n, h⟩
  · rw [dif_neg h, dif_neg h]

/-- Position `n` of window 9's block (the token word row) is argument 4's word at `(0, n)`. -/
theorem iblk9_col (c : Dev nD) (t : Fin cfg0.N) (n : Nat) :
    colWord (iblk m c 9 t) n = colWord (m ((c : Thread nD τ).loc main_arg4)) n := by
  unfold colWord
  by_cases h : n < 1024
  · rw [dif_pos h, dif_pos h]
    refine (iblk9_at m c t ⟨n, h⟩).trans ?_
    rw [V_v14]
    exact reshape_row_at _ ⟨n, h⟩
  · rw [dif_neg h, dif_neg h]

/-- The table's window at any grid point is the table argument: no host operation writes it, the block index is
    `(0, 0)` and the block is the whole array. -/
theorem iblk10_eq (c : Dev nD) (t : Fin cfg0.N) :
    (iblk m c 10 t : S139x128.Idx → EReal) = m ((c : Thread nD τ).loc main_arg5) := by
  have hi : ∀ t : Fin grid0.N, win0_10.index t 0 = 0 ∧ win0_10.index t 1 = 0 := by decide +kernel
  funext y
  unfold iblk
  rw [View.read_apply]
  show V m c main_arg5 _ = m ((c : Thread nD τ).loc main_arg5) y
  rw [V_main_arg5]
  congr 1
  funext a
  apply Fin.ext
  match a with
  | ⟨0, _⟩ => show win0_10.index t 0 * 139 + 1 * (y 0).val = (y 0).val; rw [(hi t).1]; omega
  | ⟨1, _⟩ => show win0_10.index t 1 * 128 + 1 * (y 1).val = (y 1).val; rw [(hi t).2]; omega

end Cert.KernelIdeal.Block

end
-- ==== Proof.ArrayValue.lean ====
/-
  The kernel's result array as one function of the arguments.

  The output window's block `[1, 128, 128, 128]` sits at block index `(0, i₀, i₁, 0)` of the array
  `[1, 1024, 1024, 128]` at the grid point of coordinates `(i₀, i₁)`, on the grid `8 × 8`. What that point writes back
  is the block's function of its coordinates and input blocks: element `(0, y₁, y₂, y₃)` is the pair value of row
  position `128·i₀ + y₁` and column position `128·i₁ + y₂` at channel `y₃`, the positions' words read off the input
  blocks — which are the arguments' words at those positions. The block's element `y` lands at the array index
  `(0, 128·i₀ + y₁, 128·i₁ + y₂, y₃)`, so each point writes its block of ONE array, `result`; the 64 blocks cover the
  array (index `j` lies in the block of the point with coordinates `(j₁ / 128, j₂ / 128)`), so after the run the
  array is `result`.
-/
import proofs.«414862_j78022375899177_3_alg».proof.Proof.Gen.KernelIdeal.Value
import proofs.«414862_j78022375899177_3_alg».proof.Proof.ResultArray
import proofs.«414862_j78022375899177_3_alg».proof.Proof.BlockPieces
import proofs.«414862_j78022375899177_3_alg».proof.Proof.BlockInputs
import Idealize.ShloMosaic.Lib.Pipeline.Value

noncomputable section

namespace Cert.KernelIdeal.Array

open Cert.KernelIdeal Cert.KernelIdeal.Gen Cert.KernelIdeal.Value Cert.KernelIdeal.Block Cert.RelPos Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output window's block index at every grid point: `(0, i₀, i₁, 0)` at the point of coordinates `(i₀, i₁)`. -/
theorem idx_facts : ∀ t : Fin cfg0.N, win0_11.index t 0 = 0 ∧ win0_11.index t 1 = (grid0.coords t 0).val
    ∧ win0_11.index t 2 = (grid0.coords t 1).val ∧ win0_11.index t 3 = 0 :=
  (by decide +kernel : ∀ t : Fin grid0.N, _)

/-- The word of column position `n` in an argument is the argument's word of position `k` when `k` is `n`. -/
theorem colWord_eq (X : IVec S1x1024 32) (n : Nat) (k : Fin 1024) (h : k.val = n) : colWord X n = argWord X k := by
  subst h
  unfold colWord argWord
  rw [dif_pos k.isLt]

/-- The block of the point with coordinates `i` at its element `y` is the result at the array index `j` whose row is
    `128·i₀ + y₁`, whose column is `128·i₁ + y₂` and whose channel is `y₃`. -/
theorem point_eq (c : Dev nD) (t : Fin cfg0.N) (i : grid0.Coords) (y : S1x128x128x128.Idx) (j : S1x1024x1024x128.Idx)
    (h1 : (j 1).val = 128 * (i 0).val + (y 1).val) (h2 : (j 2).val = 128 * (i 1).val + (y 2).val)
    (h3 : (j 3).val = (y 3).val) :
    blockVal i (iblk m c 0 t) (iblk m c 2 t) (iblk m c 4 t) (iblk m c 6 t) (iblk m c 8 t)
        (iblk m c 1 t) (iblk m c 3 t) (iblk m c 5 t) (iblk m c 7 t) (iblk m c 9 t) (iblk m c 10 t) y
      = result m c j := by
  have e3 : y 3 = j 3 := Fin.ext h3.symm
  unfold blockVal result
  rw [iblk0_row, iblk1_col, iblk2_row, iblk3_col, iblk4_row, iblk5_col, iblk6_row, iblk7_col, iblk8_row, iblk9_col,
    iblk10_eq, e3,
    colWord_eq (m ((c : Thread nD τ).loc main_arg0)) _ (j 1) h1, colWord_eq (m ((c : Thread nD τ).loc main_arg1)) _ (j 1) h1,
    colWord_eq (m ((c : Thread nD τ).loc main_arg2)) _ (j 1) h1, colWord_eq (m ((c : Thread nD τ).loc main_arg3)) _ (j 1) h1,
    colWord_eq (m ((c : Thread nD τ).loc main_arg4)) _ (j 1) h1,
    colWord_eq (m ((c : Thread nD τ).loc main_arg0)) _ (j 2) h2, colWord_eq (m ((c : Thread nD τ).loc main_arg1)) _ (j 2) h2,
    colWord_eq (m ((c : Thread nD τ).loc main_arg2)) _ (j 2) h2, colWord_eq (m ((c : Thread nD τ).loc main_arg3)) _ (j 2) h2,
    colWord_eq (m ((c : Thread nD τ).loc main_arg4)) _ (j 2) h2]

/-- What grid point `t` writes back is its block of `result`. -/
theorem flushed_eq (c : Dev nD) (t : Fin cfg0.N) :
    (dats m 0 c).flushed 11 t = ((cfg0.win 11).blk t).view.read (Elt Ideal) (result m c) := by
  rw [flushed11_A, out_block]
  funext y
  rw [View.read_apply]
  obtain ⟨e0, e1, e2, e3⟩ := idx_facts t
  show blockVal (grid0.coords t) (iblk m c 0 t) (iblk m c 2 t) (iblk m c 4 t) (iblk m c 6 t) (iblk m c 8 t)
        (iblk m c 1 t) (iblk m c 3 t) (iblk m c 5 t) (iblk m c 7 t) (iblk m c 9 t) (iblk m c 10 t)
        ((cfg0.win 11).xinj (grid0.coords t) y)
      = result m c (((cfg0.win 11).blk t).view.emb y)
  refine point_eq m c t (grid0.coords t) _ _ ?_ ?_ ?_
  · show win0_11.index t 1 * 128 + 1 * (y 1).val = 128 * (grid0.coords t 0).val + (y 1).val
    omega
  · show win0_11.index t 2 * 128 + 1 * (y 2).val = 128 * (grid0.coords t 1).val + (y 2).val
    omega
  · show win0_11.index t 3 * 128 + 1 * (y 3).val = (y 3).val
    omega

/-- Every block index `(0, q₀, q₁, 0)` with `q₀, q₁ < 8` is some grid point's. -/
theorem idx_onto : ∀ (q0 q1 : Fin 8), ∃ t : Fin cfg0.N, win0_11.index t = ![0, q0.val, q1.val, 0] :=
  (by decide +kernel : ∀ (q0 q1 : Fin 8), ∃ t : Fin grid0.N, win0_11.index t = ![0, q0.val, q1.val, 0])

/-- An index of the array is in point `t`'s block iff each coordinate is in the block's range on its axis. -/
theorem mem_blk (t : Fin cfg0.N) (i : S1x1024x1024x128.Idx) :
    i ∈ ((cfg0.win 11).blk t).view.set ↔ ∀ a : Fin 4, win0_11.index t a * S1x128x128x128.size a ≤ (i a).val
      ∧ (i a).val < win0_11.index t a * S1x128x128x128.size a + S1x128x128x128.size a := by
  show i ∈ ((View.whole main_v15).slice (win0_11.rect t)).set ↔ _
  rw [View.set_slice_whole, Rect.mem_set_unit]
  exact Iff.rfl

/-- Every index of the array is in some grid point's block: the point whose block index is
    `(0, i₁ / 128, i₂ / 128, 0)`. -/
theorem cover (i : S1x1024x1024x128.Idx) :
    ∃ t : Fin cfg0.N, (cfg0.win 11).flush t = true ∧ i ∈ ((cfg0.win 11).blk t).view.set := by
  have hi0 : (i 0).val < 1 := (i 0).isLt
  have hi1 : (i 1).val < 1024 := (i 1).isLt
  have hi2 : (i 2).val < 1024 := (i 2).isLt
  have hi3 : (i 3).val < 128 := (i 3).isLt
  obtain ⟨t, ht⟩ := idx_onto ⟨(i 1).val / 128, by omega⟩ ⟨(i 2).val / 128, by omega⟩
  have q0 : win0_11.index t 0 = 0 := congrFun ht 0
  have q1 : win0_11.index t 1 = (i 1).val / 128 := congrFun ht 1
  have q2 : win0_11.index t 2 = (i 2).val / 128 := congrFun ht 2
  have q3 : win0_11.index t 3 = 0 := congrFun ht 3
  refine ⟨t, flush0_11 t, ?_⟩
  rw [mem_blk]
  intro a
  match a with
  | ⟨0, _⟩ =>
    show win0_11.index t 0 * 1 ≤ (i 0).val ∧ (i 0).val < win0_11.index t 0 * 1 + 1
    omega
  | ⟨1, _⟩ =>
    show win0_11.index t 1 * 128 ≤ (i 1).val ∧ (i 1).val < win0_11.index t 1 * 128 + 128
    omega
  | ⟨2, _⟩ =>
    show win0_11.index t 2 * 128 ≤ (i 2).val ∧ (i 2).val < win0_11.index t 2 * 128 + 128
    omega
  | ⟨3, _⟩ =>
    show win0_11.index t 3 * 128 ≤ (i 3).val ∧ (i 3).val < win0_11.index t 3 * 128 + 128
    omega

/-- The result array after the run is `result`: every point writes its block of it, and the blocks cover the array. -/
theorem final (c : Dev nD) : (dats m 0 c).arrAt 11 cfg0.N = result m c :=
  (dats m 0 c).arrAt_eq_of_cover 11 (result m c) (fun t _ => flushed_eq m c t) cover

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Array

end
-- ==== Proof.LibRowLookup3.lean ====
/-
  A row lookup `table[idx]` with a three-axis batch of indices, read at an element.

  `stablehlo.gather` of a table `[N, M]` at start indices `[A, B, C, 1]` with `offset_dims = [3]`,
  `collapsed_slice_dims = [0]`, `start_index_map = [0]`, `index_vector_dim = 3` and slices `[1, M]` gives
  `[A, B, C, M]`: element `(a, b, c, z)` is the table at row `idx (a, b, c, 0)` — read as a signed integer and clamped to
  `[0, N − 1]` — and column `z`. Stated for any record with these dimension numbers.
-/
import Idealize.ShloMosaic.Lib.ValueIdx

noncomputable section

namespace Cert.Lib

open Idealize.ShloMosaic Idealize.ShloMosaic.ValueIdx

/-- The dimension numbers of a row lookup with a three-axis batch of one-component start indices. At a printed record
    every field is `rfl`. -/
structure RowLookup3 {N M A B C : Nat} (d : GatherDims ⟨2, ![N, M]⟩ ⟨4, ![A, B, C, 1]⟩ ⟨4, ![A, B, C, M]⟩) : Prop where
  od : d.offsetDims = [3]
  cs : d.collapsedSliceDims = [0]
  ob : d.operandBatchingDims = []
  sb : d.startIndicesBatchingDims = []
  sm : d.startIndexMap = [0]
  iv : d.indexVectorDim = 3
  ss : d.sliceSizes = ![1, M]

variable {N M A B C : Nat} {d : GatherDims ⟨2, ![N, M]⟩ ⟨4, ![A, B, C, 1]⟩ ⟨4, ![A, B, C, M]⟩}

/-- The row lookup at element `(a, b, c, z)`: row `idx (a, b, c, 0)` read signed and clamped into `[0, N − 1]`,
    column `z`. -/
theorem RowLookup3.gather_apply (hd : RowLookup3 d) (hN : 0 < N) {α : Type} {w : Nat}
    (x : (⟨2, ![N, M]⟩ : Shape).Idx → α) (idx : IVec ⟨4, ![A, B, C, 1]⟩ w)
    (a : Fin A) (b : Fin B) (c : Fin C) (z : Fin M) :
    Host.gather d x idx (ix4 a b c z)
      = x (ix2 ⟨min (idx (ix4 a b c ⟨0, Nat.one_pos⟩)).toInt.toNat (N - 1), by omega⟩ z) := by
  obtain ⟨h1, h2, h3, h4, h5, h6, h7⟩ := hd
  obtain ⟨od, cs, ob, sb, sm, iv, ss, wf⟩ := d
  simp only at h1 h2 h3 h4 h5 h6 h7
  subst h1 h2 h3 h4 h5 h6 h7
  unfold Host.gather
  congr 1
  funext ax
  refine Fin.ext ?_
  match ax with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    congr 2
    congr 1
    congr 1
    funext e; refine Fin.ext ?_
    match e with
    | ⟨0, _⟩ => rfl
    | ⟨1, _⟩ => rfl
    | ⟨2, _⟩ => rfl
    | ⟨3, _⟩ => rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr
      ⟨(show (1 : Fin 2) ∉ ([0] : List (Fin 2)) by decide), List.not_mem_nil⟩)]
    rfl

end Cert.Lib

end
-- ==== Proof.RefValue.lean ====
/-
  The reference program's result at one element, as the pair's value.

  The reference takes five word arrays `[1, 1024]` (chain, residue, entity, copy, token) and the table `[139, 128]`.
  For the pair of positions `(r, s)` it forms three relative-position codes — each the clipped shifted difference of
  two words where a comparison of the pair holds, else an extra code —, wraps each as a possibly negative index, and
  looks up a row of a slice of the table with it: rows `0 … 65` by the residue code, rows `66 … 131` by the token
  code, rows `133 … 138` by the copy code. To the sum of the first two rows it adds row 132 scaled by the same-entity
  flag, then the third row. Read at element `(0, r, s, z)`, stage by stage, the integer stages are the three codes on
  the ten words of the pair, each lookup reads the row of its code's unsigned value (the code's signed value lies in
  the slice's row range, so the wrap and the clamp leave it alone), and the whole is the pair's value at channel `z`.
-/
import proofs.«414862_j78022375899177_3_alg».proof.Proof.Gen.ReferenceIdeal.Read
import proofs.«414862_j78022375899177_3_alg».proof.Proof.PairValue
import proofs.«414862_j78022375899177_3_alg».proof.Proof.LibRowLookup3

noncomputable section

namespace Cert.ReferenceIdeal.RefValue

open Cert.ReferenceIdeal Cert.ReferenceIdeal.Read Idealize.ShloMosaic Idealize.ShloMosaic.ValueIdx Cert.RelPos

/-- A word array `[1, 1024]` broadcast along the rows of the pair grid: at pair `(r, s)` the word of position `r`. -/
theorem row_at (x : (⟨S1x1024, .i32⟩ : BufTy).Contents (Elt Ideal)) (r s : Fin 1024) :
    val_main_v2 (F := Ideal) x (ix3 ⟨0, Nat.one_pos⟩ r s) = x (ix2 ⟨0, Nat.one_pos⟩ r) := by
  rw [val_main_v2_apply, val_main_v0_apply]
  congr 1
  funext a
  match a with
  | ⟨0, _⟩ => rfl
  | ⟨1, _⟩ => rfl

/-- … and along the columns: at pair `(r, s)` the word of position `s`. -/
theorem col_at (x : (⟨S1x1024, .i32⟩ : BufTy).Contents (Elt Ideal)) (r s : Fin 1024) :
    val_main_v3 (F := Ideal) x (ix3 ⟨0, Nat.one_pos⟩ r s) = x (ix2 ⟨0, Nat.one_pos⟩ s) := by
  rw [val_main_v3_apply, val_main_v1_apply]
  congr 1
  funext a
  match a with
  | ⟨0, _⟩ => rfl
  | ⟨1, _⟩ => rfl

/-- The residue code of the reference at pair `(r, s)`. -/
theorem code_res_at (x0 x1 : (⟨S1x1024, .i32⟩ : BufTy).Contents (Elt Ideal)) (r s : Fin 1024) :
    val_main_v23 (F := Ideal) x0 x1 (ix3 ⟨0, Nat.one_pos⟩ r s)
      = resCode (x0 (ix2 ⟨0, Nat.one_pos⟩ r)) (x1 (ix2 ⟨0, Nat.one_pos⟩ r)) (x0 (ix2 ⟨0, Nat.one_pos⟩ s)) (x1 (ix2 ⟨0, Nat.one_pos⟩ s)) := by
  have h17 : val_main_v17 (F := Ideal) x1 = val_main_v2 (F := Ideal) x1 := rfl
  have h18 : val_main_v18 (F := Ideal) x1 = val_main_v3 (F := Ideal) x1 := rfl
  rw [val_main_v23_apply, val_main_v4_apply, val_main_v22_apply, val_main_call0_v4_apply, val_main_call0_v3_apply,
    val_main_c_1_apply, val_main_call0_v2_apply, val_main_call0_v1_apply, val_main_call0_v0_apply, val_main_c_0_apply,
    val_main_v21_apply, val_main_v19_apply, val_main_v20_apply, val_main_c_apply, val_main_call1_v1_apply,
    val_main_call1_v0_apply, val_main_c_2_apply, h17, h18, row_at, col_at, row_at, col_at]
  rfl

/-- The token code of the reference at pair `(r, s)`. -/
theorem code_tok_at (x0 x1 x4 : (⟨S1x1024, .i32⟩ : BufTy).Contents (Elt Ideal)) (r s : Fin 1024) :
    val_main_v33 (F := Ideal) x0 x1 x4 (ix3 ⟨0, Nat.one_pos⟩ r s)
      = tokCode (x0 (ix2 ⟨0, Nat.one_pos⟩ r)) (x1 (ix2 ⟨0, Nat.one_pos⟩ r)) (x4 (ix2 ⟨0, Nat.one_pos⟩ r))
          (x0 (ix2 ⟨0, Nat.one_pos⟩ s)) (x1 (ix2 ⟨0, Nat.one_pos⟩ s)) (x4 (ix2 ⟨0, Nat.one_pos⟩ s)) := by
  have h7 : val_main_v7 (F := Ideal) x1 = val_main_v2 (F := Ideal) x1 := rfl
  have h8 : val_main_v8 (F := Ideal) x1 = val_main_v3 (F := Ideal) x1 := rfl
  have h27 : val_main_v27 (F := Ideal) x4 = val_main_v2 (F := Ideal) x4 := rfl
  have h28 : val_main_v28 (F := Ideal) x4 = val_main_v3 (F := Ideal) x4 := rfl
  rw [val_main_v33_apply, val_main_v24_apply, val_main_v4_apply, val_main_v9_apply, val_main_v32_apply,
    val_main_call2_v4_apply, val_main_call2_v3_apply, val_main_c_5_apply, val_main_call2_v2_apply,
    val_main_call2_v1_apply, val_main_call2_v0_apply, val_main_c_4_apply, val_main_v31_apply, val_main_v29_apply,
    val_main_v30_apply, val_main_c_3_apply, val_main_call3_v1_apply, val_main_call3_v0_apply, val_main_c_6_apply,
    h7, h8, h27, h28, row_at, col_at, row_at, col_at, row_at, col_at]
  rfl

/-- The copy code of the reference at pair `(r, s)`. -/
theorem code_chain_at (x2 x3 : (⟨S1x1024, .i32⟩ : BufTy).Contents (Elt Ideal)) (r s : Fin 1024) :
    val_main_v42 (F := Ideal) x2 x3 (ix3 ⟨0, Nat.one_pos⟩ r s)
      = chainCode (x2 (ix2 ⟨0, Nat.one_pos⟩ r)) (x3 (ix2 ⟨0, Nat.one_pos⟩ r))
          (x2 (ix2 ⟨0, Nat.one_pos⟩ s)) (x3 (ix2 ⟨0, Nat.one_pos⟩ s)) := by
  have h12 : val_main_v12 (F := Ideal) x2 = val_main_v2 (F := Ideal) x2 := rfl
  have h13 : val_main_v13 (F := Ideal) x2 = val_main_v3 (F := Ideal) x2 := rfl
  have h36 : val_main_v36 (F := Ideal) x3 = val_main_v2 (F := Ideal) x3 := rfl
  have h37 : val_main_v37 (F := Ideal) x3 = val_main_v3 (F := Ideal) x3 := rfl
  rw [val_main_v42_apply, val_main_v14_apply, val_main_v41_apply, val_main_call4_v4_apply, val_main_call4_v3_apply,
    val_main_c_9_apply, val_main_call4_v2_apply, val_main_call4_v1_apply, val_main_call4_v0_apply, val_main_c_8_apply,
    val_main_v40_apply, val_main_v38_apply, val_main_v39_apply, val_main_c_7_apply, val_main_call5_v1_apply,
    val_main_call5_v0_apply, val_main_c_10_apply, h12, h13, h36, h37, row_at, col_at, row_at, col_at]
  rfl

/-- A row lookup whose start index at `(0, r, s, 0)` is the negative-index wrap of a code in `[0, N)`: at
    `(0, r, s, z)` the table's row of the code's unsigned value, column `z`. -/
theorem lookup_at {N : Nat} {d : GatherDims ⟨2, ![N, 128]⟩ ⟨4, ![1, 1024, 1024, 1]⟩ ⟨4, ![1, 1024, 1024, 128]⟩}
    (hd : Cert.Lib.RowLookup3 d) (hN : 0 < N) (T : (⟨2, ![N, 128]⟩ : Shape).Idx → EReal)
    (idx : IVec ⟨4, ![1, 1024, 1024, 1]⟩ 32) (code n : BitVec 32) (r s : Fin 1024) (z : Fin 128)
    (h0 : 0 ≤ code.toInt) (hc : code.toInt < N)
    (hidx : idx (ix4 ⟨0, Nat.one_pos⟩ r s ⟨0, Nat.one_pos⟩)
      = Scalar.select (IntOp.cmpi .slt code 0#32) (IntOp.addi code n) code) :
    Host.gather d T idx (ix4 ⟨0, Nat.one_pos⟩ r s z) = T (ix2 ⟨code.toNat, toNat_lt_of_range code N h0 hc⟩ z) := by
  refine (hd.gather_apply hN T idx ⟨0, Nat.one_pos⟩ r s z).trans ?_
  refine congrArg (fun k => T (ix2 k z)) (Fin.ext ?_)
  show min (idx (ix4 ⟨0, Nat.one_pos⟩ r s ⟨0, Nat.one_pos⟩)).toInt.toNat (N - 1) = code.toNat
  rw [hidx, wrap_of_nonneg code n h0]
  exact clamp_of_range code N h0 hc

/-- The row lookup into a 66-row slice has the dimension numbers of a three-axis batched row lookup. -/
theorem lookup66 : Cert.Lib.RowLookup3 gather_S66x128_S1x1024x1024x1_S1x1024x1024x128_3_0_n_n_0_3_1128 :=
  ⟨rfl, rfl, rfl, rfl, rfl, rfl, rfl⟩

/-- … and so has the row lookup into the 6-row slice. -/
theorem lookup6 : Cert.Lib.RowLookup3 gather_S6x128_S1x1024x1024x1_S1x1024x1024x128_3_0_n_n_0_3_1128 :=
  ⟨rfl, rfl, rfl, rfl, rfl, rfl, rfl⟩

/-- The residue lookup's start index at `(0, r, s, 0)`: the wrap of the residue code. -/
theorem start_res_at (x0 x1 : (⟨S1x1024, .i32⟩ : BufTy).Contents (Elt Ideal)) (r s : Fin 1024) :
    val_main_v53 (F := Ideal) x0 x1 (ix4 ⟨0, Nat.one_pos⟩ r s ⟨0, Nat.one_pos⟩)
      = Scalar.select (IntOp.cmpi .slt (val_main_v23 (F := Ideal) x0 x1 (ix3 ⟨0, Nat.one_pos⟩ r s)) 0#32)
          (IntOp.addi (val_main_v23 (F := Ideal) x0 x1 (ix3 ⟨0, Nat.one_pos⟩ r s)) 66#32)
          (val_main_v23 (F := Ideal) x0 x1 (ix3 ⟨0, Nat.one_pos⟩ r s)) := by
  have e : idx_main_v53 (ix4 ⟨0, Nat.one_pos⟩ r s ⟨0, Nat.one_pos⟩) = ix3 ⟨0, Nat.one_pos⟩ r s := by
    funext a
    match a with
    | ⟨0, _⟩ => rfl
    | ⟨1, _⟩ => rfl
    | ⟨2, _⟩ => rfl
  rw [val_main_v53_apply, e, val_main_v52_apply, val_main_v49_apply, val_main_v51_apply, val_main_v48_apply,
    val_main_c_11_apply, val_main_v50_apply, val_main_c_12_apply]

/-- The token lookup's start index at `(0, r, s, 0)`: the wrap of the token code. -/
theorem start_tok_at (x0 x1 x4 : (⟨S1x1024, .i32⟩ : BufTy).Contents (Elt Ideal)) (r s : Fin 1024) :
    val_main_v60 (F := Ideal) x0 x1 x4 (ix4 ⟨0, Nat.one_pos⟩ r s ⟨0, Nat.one_pos⟩)
      = Scalar.select (IntOp.cmpi .slt (val_main_v33 (F := Ideal) x0 x1 x4 (ix3 ⟨0, Nat.one_pos⟩ r s)) 0#32)
          (IntOp.addi (val_main_v33 (F := Ideal) x0 x1 x4 (ix3 ⟨0, Nat.one_pos⟩ r s)) 66#32)
          (val_main_v33 (F := Ideal) x0 x1 x4 (ix3 ⟨0, Nat.one_pos⟩ r s)) := by
  have e : idx_main_v60 (ix4 ⟨0, Nat.one_pos⟩ r s ⟨0, Nat.one_pos⟩) = ix3 ⟨0, Nat.one_pos⟩ r s := by
    funext a
    match a with
    | ⟨0, _⟩ => rfl
    | ⟨1, _⟩ => rfl
    | ⟨2, _⟩ => rfl
  rw [val_main_v60_apply, e, val_main_v59_apply, val_main_v56_apply, val_main_v58_apply, val_main_v55_apply,
    val_main_c_13_apply, val_main_v57_apply, val_main_c_14_apply]

/-- The copy lookup's start index at `(0, r, s, 0)`: the wrap of the copy code. -/
theorem start_chain_at (x2 x3 : (⟨S1x1024, .i32⟩ : BufTy).Contents (Elt Ideal)) (r s : Fin 1024) :
    val_main_v75 (F := Ideal) x2 x3 (ix4 ⟨0, Nat.one_pos⟩ r s ⟨0, Nat.one_pos⟩)
      = Scalar.select (IntOp.cmpi .slt (val_main_v42 (F := Ideal) x2 x3 (ix3 ⟨0, Nat.one_pos⟩ r s)) 0#32)
          (IntOp.addi (val_main_v42 (F := Ideal) x2 x3 (ix3 ⟨0, Nat.one_pos⟩ r s)) 6#32)
          (val_main_v42 (F := Ideal) x2 x3 (ix3 ⟨0, Nat.one_pos⟩ r s)) := by
  have e : idx_main_v75 (ix4 ⟨0, Nat.one_pos⟩ r s ⟨0, Nat.one_pos⟩) = ix3 ⟨0, Nat.one_pos⟩ r s := by
    funext a
    match a with
    | ⟨0, _⟩ => rfl
    | ⟨1, _⟩ => rfl
    | ⟨2, _⟩ => rfl
  rw [val_main_v75_apply, e, val_main_v74_apply, val_main_v71_apply, val_main_v73_apply, val_main_v70_apply,
    val_main_c_15_apply, val_main_v72_apply, val_main_c_16_apply]

/-- The residue lookup at `(0, r, s, z)`: the table's row `residue code`, column `z`. -/
theorem gather_res_at (x0 x1 : (⟨S1x1024, .i32⟩ : BufTy).Contents (Elt Ideal))
    (x5 : (⟨S139x128, .f32⟩ : BufTy).Contents (Elt Ideal)) (r s : Fin 1024) (z : Fin 128) :
    val_main_v54 (F := Ideal) x0 x1 x5 (ix4 ⟨0, Nat.one_pos⟩ r s z)
      = x5 (ix2 ⟨(resCode (x0 (ix2 ⟨0, Nat.one_pos⟩ r)) (x1 (ix2 ⟨0, Nat.one_pos⟩ r)) (x0 (ix2 ⟨0, Nat.one_pos⟩ s)) (x1 (ix2 ⟨0, Nat.one_pos⟩ s))).toNat,
          by have := resCode_lt (x0 (ix2 ⟨0, Nat.one_pos⟩ r)) (x1 (ix2 ⟨0, Nat.one_pos⟩ r)) (x0 (ix2 ⟨0, Nat.one_pos⟩ s)) (x1 (ix2 ⟨0, Nat.one_pos⟩ s)); omega⟩ z) := by
  unfold val_main_v54
  refine (lookup_at lookup66 (by decide) (val_main_v43 (F := Ideal) x5) (val_main_v53 (F := Ideal) x0 x1)
    (resCode (x0 (ix2 ⟨0, Nat.one_pos⟩ r)) (x1 (ix2 ⟨0, Nat.one_pos⟩ r)) (x0 (ix2 ⟨0, Nat.one_pos⟩ s)) (x1 (ix2 ⟨0, Nat.one_pos⟩ s))) 66#32 r s z
    (resCode_range _ _ _ _).1 (resCode_range _ _ _ _).2 ?_).trans ?_
  · rw [start_res_at, code_res_at]
  · rw [val_main_v43_apply]
    congr 1
    funext a
    match a with
    | ⟨0, _⟩ => rfl
    | ⟨1, _⟩ => rfl

/-- The token lookup at `(0, r, s, z)`: the table's row `66 + token code`, column `z`. -/
theorem gather_tok_at (x0 x1 x4 : (⟨S1x1024, .i32⟩ : BufTy).Contents (Elt Ideal))
    (x5 : (⟨S139x128, .f32⟩ : BufTy).Contents (Elt Ideal)) (r s : Fin 1024) (z : Fin 128) :
    val_main_v61 (F := Ideal) x0 x1 x4 x5 (ix4 ⟨0, Nat.one_pos⟩ r s z)
      = x5 (ix2 ⟨66 + (tokCode (x0 (ix2 ⟨0, Nat.one_pos⟩ r)) (x1 (ix2 ⟨0, Nat.one_pos⟩ r)) (x4 (ix2 ⟨0, Nat.one_pos⟩ r))
            (x0 (ix2 ⟨0, Nat.one_pos⟩ s)) (x1 (ix2 ⟨0, Nat.one_pos⟩ s)) (x4 (ix2 ⟨0, Nat.one_pos⟩ s))).toNat,
          by have := tokCode_lt (x0 (ix2 ⟨0, Nat.one_pos⟩ r)) (x1 (ix2 ⟨0, Nat.one_pos⟩ r)) (x4 (ix2 ⟨0, Nat.one_pos⟩ r))
               (x0 (ix2 ⟨0, Nat.one_pos⟩ s)) (x1 (ix2 ⟨0, Nat.one_pos⟩ s)) (x4 (ix2 ⟨0, Nat.one_pos⟩ s)); omega⟩ z) := by
  unfold val_main_v61
  refine (lookup_at lookup66 (by decide) (val_main_v44 (F := Ideal) x5) (val_main_v60 (F := Ideal) x0 x1 x4)
    (tokCode (x0 (ix2 ⟨0, Nat.one_pos⟩ r)) (x1 (ix2 ⟨0, Nat.one_pos⟩ r)) (x4 (ix2 ⟨0, Nat.one_pos⟩ r))
      (x0 (ix2 ⟨0, Nat.one_pos⟩ s)) (x1 (ix2 ⟨0, Nat.one_pos⟩ s)) (x4 (ix2 ⟨0, Nat.one_pos⟩ s))) 66#32 r s z
    (tokCode_range _ _ _ _ _ _).1 (tokCode_range _ _ _ _ _ _).2 ?_).trans ?_
  · rw [start_tok_at, code_tok_at]
  · rw [val_main_v44_apply]
    congr 1
    funext a
    match a with
    | ⟨0, _⟩ => rfl
    | ⟨1, _⟩ => rfl

/-- The copy lookup at `(0, r, s, z)`: the table's row `133 + copy code`, column `z`. -/
theorem gather_chain_at (x2 x3 : (⟨S1x1024, .i32⟩ : BufTy).Contents (Elt Ideal))
    (x5 : (⟨S139x128, .f32⟩ : BufTy).Contents (Elt Ideal)) (r s : Fin 1024) (z : Fin 128) :
    val_main_v76 (F := Ideal) x2 x3 x5 (ix4 ⟨0, Nat.one_pos⟩ r s z)
      = x5 (ix2 ⟨133 + (chainCode (x2 (ix2 ⟨0, Nat.one_pos⟩ r)) (x3 (ix2 ⟨0, Nat.one_pos⟩ r)) (x2 (ix2 ⟨0, Nat.one_pos⟩ s)) (x3 (ix2 ⟨0, Nat.one_pos⟩ s))).toNat,
          by have := chainCode_lt (x2 (ix2 ⟨0, Nat.one_pos⟩ r)) (x3 (ix2 ⟨0, Nat.one_pos⟩ r)) (x2 (ix2 ⟨0, Nat.one_pos⟩ s)) (x3 (ix2 ⟨0, Nat.one_pos⟩ s)); omega⟩ z) := by
  unfold val_main_v76
  refine (lookup_at lookup6 (by decide) (val_main_v47 (F := Ideal) x5) (val_main_v75 (F := Ideal) x2 x3)
    (chainCode (x2 (ix2 ⟨0, Nat.one_pos⟩ r)) (x3 (ix2 ⟨0, Nat.one_pos⟩ r)) (x2 (ix2 ⟨0, Nat.one_pos⟩ s)) (x3 (ix2 ⟨0, Nat.one_pos⟩ s))) 6#32 r s z
    (chainCode_range _ _ _ _).1 (chainCode_range _ _ _ _).2 ?_).trans ?_
  · rw [start_chain_at, code_chain_at]
  · rw [val_main_v47_apply]
    congr 1
    funext a
    match a with
    | ⟨0, _⟩ => rfl
    | ⟨1, _⟩ => rfl

/-- The entity term at `(0, r, s, z)`: the same-entity flag times the table's row 132, column `z`. -/
theorem ent_at (x2 : (⟨S1x1024, .i32⟩ : BufTy).Contents (Elt Ideal))
    (x5 : (⟨S139x128, .f32⟩ : BufTy).Contents (Elt Ideal)) (r s : Fin 1024) (z : Fin 128) :
    val_main_v68 (F := Ideal) x2 x5 (ix4 ⟨0, Nat.one_pos⟩ r s z)
      = entFlag (x2 (ix2 ⟨0, Nat.one_pos⟩ r)) (x2 (ix2 ⟨0, Nat.one_pos⟩ s)) * x5 (ix2 ⟨132, by omega⟩ z) := by
  have h12 : val_main_v12 (F := Ideal) x2 = val_main_v2 (F := Ideal) x2 := rfl
  have h13 : val_main_v13 (F := Ideal) x2 = val_main_v3 (F := Ideal) x2 := rfl
  have e1 : idx_main_v63 (idx_main_v66 (ix4 ⟨0, Nat.one_pos⟩ r s z)) = ix3 ⟨0, Nat.one_pos⟩ r s := by
    funext a
    match a with
    | ⟨0, _⟩ => rfl
    | ⟨1, _⟩ => rfl
    | ⟨2, _⟩ => rfl
  have e2 : idx_main_v45 (idx_main_v46 (idx_main_v65 (idx_main_v67 (ix4 ⟨0, Nat.one_pos⟩ r s z)))) = ix2 ⟨132, by omega⟩ z := by
    funext a
    match a with
    | ⟨0, _⟩ => rfl
    | ⟨1, _⟩ => exact Fin.ext (Nat.mod_eq_of_lt z.isLt)
  rw [val_main_v68_apply, val_main_v66_apply, val_main_v64_apply, val_main_v63_apply, e1, val_main_v14_apply,
    h12, h13, row_at, col_at, flag_unsigned, val_main_v67_apply, val_main_v65_apply, val_main_v46_apply,
    val_main_v45_apply, e2]
  rfl

/-- The reference's result at `(0, r, s, z)` is the pair's value. -/
theorem result_at (x0 x1 x2 x3 x4 : (⟨S1x1024, .i32⟩ : BufTy).Contents (Elt Ideal))
    (x5 : (⟨S139x128, .f32⟩ : BufTy).Contents (Elt Ideal)) (r s : Fin 1024) (z : Fin 128) :
    val_main_v77 (F := Ideal) x0 x1 x2 x3 x4 x5 (ix4 ⟨0, Nat.one_pos⟩ r s z)
      = pairVal x5 (x0 (ix2 0 r)) (x1 (ix2 0 r)) (x2 (ix2 0 r)) (x3 (ix2 0 r)) (x4 (ix2 0 r))
          (x0 (ix2 0 s)) (x1 (ix2 0 s)) (x2 (ix2 0 s)) (x3 (ix2 0 s)) (x4 (ix2 0 s)) z := by
  rw [val_main_v77_apply, val_main_v69_apply, val_main_v62_apply, gather_res_at, gather_tok_at, gather_chain_at,
    ent_at]
  rfl

end Cert.ReferenceIdeal.RefValue

end
-- ==== Proof.lean ====
/- The proof of `Cert.Claim`: the relative-position kernel against its reference, over the extended reals.

   For a pair of positions (r, s) both programs make three codes from the positions' integer words — the residue
   difference shifted by 32 and clipped to [0, 64] on one chain (else 65), the token difference likewise where chain
   and residue agree (else 65), the copy difference shifted by 2 and clipped to [0, 4] on one entity (else 5) — and a
   same-entity flag. The kernel spreads the codes into one-hot lanes (66 + 66 + 1 + 6 = 139 with the flag's lane) and
   multiplies the 139-lane feature row with the 139 × 128 table; the reference looks up table rows at the codes (rows
   0.., 66.., 133..) and adds the flag times row 132. A one-hot row times a column is the column's entry at the hot lane —
   on the extended reals `0 · x = 0` and `1 · x = x` for every x, so no finiteness is used — and the codes lie in
   range, so the lookups read the same rows: both results are, element (0, r, s, z), the sum
   W[res code, z] + W[66 + token code, z] + flag · W[132, z] + W[133 + copy code, z].

   The kernel side: each grid point (i₀, i₁) of the 8 × 8 grid runs four chunks of 32 rows; a chunk's stored value is the
   chunk function of its loads, which at an element is the pair's value; the four stores tile the point's block
   [1, 128, 128, 128]; the 64 blocks tile the result array. The reference side: its run read one operation at a time down
   to the same pair value. The word-level kernel and both idealized programs run and leave their arguments unchanged
   (the generated frames; the reference's frame is its run). The idealization changed no operation. -/
import proofs.«414862_j78022375899177_3_alg».proof.Defs
import proofs.«414862_j78022375899177_3_alg».proof.Proof.Gen.Kernel
import proofs.«414862_j78022375899177_3_alg».proof.Proof.Gen.Kernel.Skeleton
import proofs.«414862_j78022375899177_3_alg».proof.Proof.Gen.Kernel.Launch
import proofs.«414862_j78022375899177_3_alg».proof.Proof.Gen.Kernel.Points
import proofs.«414862_j78022375899177_3_alg».proof.Proof.Gen.Kernel.Frame
import proofs.«414862_j78022375899177_3_alg».proof.Proof.Gen.KernelIdeal
import proofs.«414862_j78022375899177_3_alg».proof.Proof.Gen.KernelIdeal.Skeleton
import proofs.«414862_j78022375899177_3_alg».proof.Proof.Gen.KernelIdeal.Launch
import proofs.«414862_j78022375899177_3_alg».proof.Proof.Gen.KernelIdeal.Points
import proofs.«414862_j78022375899177_3_alg».proof.Proof.Gen.KernelIdeal.Frame
import proofs.«414862_j78022375899177_3_alg».proof.Proof.Gen.ReferenceIdeal
import proofs.«414862_j78022375899177_3_alg».proof.Proof.Gen.Pre_finite_inputs
import proofs.«414862_j78022375899177_3_alg».proof.Proof.Gen.KernelIdeal.Value
import proofs.«414862_j78022375899177_3_alg».proof.Proof.Gen.ReferenceIdeal.Run
import proofs.«414862_j78022375899177_3_alg».proof.Proof.Gen.ReferenceIdeal.Read
import proofs.«414862_j78022375899177_3_alg».proof.Proof.ArrayValue
import proofs.«414862_j78022375899177_3_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same result array: element (0, r, s, z) is the pair value of positions r and s
    at channel z, the kernel's by its blocks, the reference's by its run read at the element. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq]
  funext j
  obtain ⟨r, s, z, rfl⟩ : ∃ (r s : Fin 1024) (z : Fin 128), j = ValueIdx.ix4 ⟨0, Nat.one_pos⟩ r s z :=
    ⟨j 1, j 2, j 3, by
      have h := ValueIdx.eq_ix4 j
      have h0 : j 0 = ⟨0, Nat.one_pos⟩ := Fin.ext (by have h1 : (j 0).val < 1 := (j 0).isLt; show (j 0).val = 0; omega)
      rw [h0] at h; exact h⟩
  rw [Cert.ReferenceIdeal.RefValue.result_at]
  obtain ⟨h0, h1, h2, h3, h4, h5⟩ := hagree c
  rw [h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
